-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x256x256 : Shape := ⟨4, ![4, 256, 256, 256]⟩
abbrev S256x32 : Shape := ⟨2, ![256, 32]⟩
abbrev S32 : Shape := ⟨1, ![32]⟩
abbrev S256x256 : Shape := ⟨2, ![256, 256]⟩
abbrev S256 : Shape := ⟨1, ![256]⟩
abbrev S_ : Shape := ⟨0, ![]⟩

class Facts : Prop where
  bcast_S_S4x256x256x256 : S_.BroadcastsInDim S4x256x256x256 (![] : Fin 0 → Fin S4x256x256x256.rank)
  reducesTo_S4x256x256x256_S_d0_1_2_3 : S4x256x256x256.ReducesTo [0, 1, 2, 3] S_
  h_S_ : 0 < S_.numel
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S32 .f32) (main_arg5 : FVec F S256x256 .f32) (main_arg6 : FVec F S256 .f32) (main_v13 : IVec S_ 1) (main_v16 : IVec S256x32 1) : IVec S_ 1 :=
  let main_c_5 : IVec S_ 1 := constantI S_ 1 1#1
  let main_v17 : IVec S_ 1 := (fun x v => Host.reduce IntOp.andi x v reducesTo_S256x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S4x256x256x256 .f32) (main_arg1 : FVec F S256x32 .f32) (main_arg2 : FVec F S32 .f32) (main_arg3 : FVec F S256x32 .f32) (main_arg4 : FVec F S32 .f32) (main_arg5 : FVec F S256x256 .f32) (main_arg6 : FVec F S256 .f32) : IVec S_ 1 :=
  let main_v0 : FVec F S4x256x256x256 .f32 := Host.absf main_arg0
  let main_cst : FVec F S_ .f32 := constant S_ .f32 0x7F800000#32
  let main_v1 : FVec F S4x256x256x256 .f32 := broadcastInDim S4x256x256x256 ![] bcast_S_S4x256x256x256 main_cst
  let main_v2 : IVec S4x256x256x256 1 := cmpf .olt main_v0 main_v1
  let main_c : IVec S_ 1 := constantI S_ 1 1#1
  let main_v3 : IVec S_ 1 := (fun x v => Host.reduce IntOp.andi x v reducesTo_S4x256x256x256_S_d0_1_2_3 h_S_) main_v2 main_c
  let main_v4 : FVec F S256x32 .f32 := Host.absf main_arg1
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S256x32 .f32 := Host.absf main_arg3
  let main_cst_4 : FVec F S_ .f32 := constant S_ .f32 0x7F800000#32
  let main_v15 : FVec F S256x32 .f32 := broadcastInDim S256x32 ![] bcast_S_S256x32 main_cst_4
  let main_v16 : IVec S256x32 1 := cmpf .olt main_v14 main_v15
  fn_part1 (F := F) main_arg4 main_arg5 main_arg6 main_v13 main_v16
-- ==== Kernel.lean ====
abbrev S4x256x256x256 : Shape := ⟨4, ![4, 256, 256, 256]⟩
abbrev S256x32 : Shape := ⟨2, ![256, 32]⟩
abbrev S32 : Shape := ⟨1, ![32]⟩
abbrev S256x256 : Shape := ⟨2, ![256, 256]⟩
abbrev S256 : Shape := ⟨1, ![256]⟩
abbrev S1024x256x256 : Shape := ⟨3, ![1024, 256, 256]⟩
abbrev S1x1x32 : Shape := ⟨3, ![1, 1, 32]⟩
abbrev S1x1x256 : Shape := ⟨3, ![1, 1, 256]⟩
abbrev S16x256x256 : Shape := ⟨3, ![16, 256, 256]⟩
abbrev S4096x256 : Shape := ⟨2, ![4096, 256]⟩
abbrev S4096x32 : Shape := ⟨2, ![4096, 32]⟩
abbrev S1x32 : Shape := ⟨2, ![1, 32]⟩
abbrev S1x256 : Shape := ⟨2, ![1, 256]⟩
abbrev S16x256x32 : Shape := ⟨3, ![16, 256, 32]⟩

abbrev nBuf : Space → Nat
  | .hbm => 13
  | .vmem => 10
  | .smem => 0
  | _ => 0

abbrev bufTy : (tb : Table) → Fin (tcTables nBuf tb) → BufTy
  | .hbm, ⟨0, _⟩ => ⟨S4x256x256x256, .f32⟩
  | .hbm, ⟨1, _⟩ => ⟨S256x32, .f32⟩
  | .hbm, ⟨2, _⟩ => ⟨S32, .f32⟩
  | .hbm, ⟨3, _⟩ => ⟨S256x32, .f32⟩
  | .hbm, ⟨4, _⟩ => ⟨S32, .f32⟩
  | .hbm, ⟨5, _⟩ => ⟨S256x256, .f32⟩
  | .hbm, ⟨6, _⟩ => ⟨S256, .f32⟩
  | .hbm, ⟨7, _⟩ => ⟨S1024x256x256, .f32⟩
  | .hbm, ⟨8, _⟩ => ⟨S1x1x32, .f32⟩
  | .hbm, ⟨9, _⟩ => ⟨S1x1x32, .f32⟩
  | .hbm, ⟨10, _⟩ => ⟨S1x1x256, .f32⟩
  | .hbm, ⟨11, _⟩ => ⟨S1024x256x256, .f32⟩
  | .hbm, ⟨12, _⟩ => ⟨S4x256x256x256, .f32⟩
  | .local _ .vmem, ⟨0, _⟩ => ⟨S16x256x256, .f32⟩
  | .local _ .vmem, ⟨1, _⟩ => ⟨S16x256x256, .f32⟩
  | .local _ .vmem, ⟨2, _⟩ => ⟨S256x32, .f32⟩
  | .local _ .vmem, ⟨3, _⟩ => ⟨S1x1x32, .f32⟩
  | .local _ .vmem, ⟨4, _⟩ => ⟨S256x32, .f32⟩
  | .local _ .vmem, ⟨5, _⟩ => ⟨S1x1x32, .f32⟩
  | .local _ .vmem, ⟨6, _⟩ => ⟨S256x256, .f32⟩
  | .local _ .vmem, ⟨7, _⟩ => ⟨S1x1x256, .f32⟩
  | .local _ .vmem, ⟨8, _⟩ => ⟨S16x256x256, .f32⟩
  | .local _ .vmem, ⟨9, _⟩ => ⟨S16x256x256, .f32⟩
  | _, _ => ⟨S4x256x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4x256x256x256_S1024x256x256 : S4x256x256x256.ShapeCasts S1024x256x256
  shapeCasts_S32_S1x1x32 : S32.ShapeCasts S1x1x32
  shapeCasts_S256_S1x1x256 : S256.ShapeCasts S1x1x256
  inb_S16x256x256_S16x256x256_0_0_0 : ∀ a, (![0, 0, 0] : Fin 3 → Nat) a + S16x256x256.size a ≤ S16x256x256.size a
  h_S16x256x256 : 0 < S16x256x256.numel
  shapeCasts_S16x256x256_S16x256x256 : S16x256x256.ShapeCasts S16x256x256
  bitsLt_bf16_f32 : FTy.bits .bf16 < FTy.bits .f32
  shapeCasts_S16x256x256_S4096x256 : S16x256x256.ShapeCasts S4096x256
  inb_S256x32_S256x32_0_0 : ∀ a, (![0, 0] : Fin 2 → Nat) a + S256x32.size a ≤ S256x32.size a
  h_S256x32 : 0 < S256x32.numel
  inb_S256x256_S256x256_0_0 : ∀ a, (![0, 0] : Fin 2 → Nat) a + S256x256.size a ≤ S256x256.size a
  h_S256x256 : 0 < S256x256.numel
  inb_S1x1x32_S1x1x32_0_0_0 : ∀ a, (![0, 0, 0] : Fin 3 → Nat) a + S1x1x32.size a ≤ S1x1x32.size a
  h_S1x1x32 : 0 < S1x1x32.numel
  shapeCasts_S1x1x32_S1x1x32 : S1x1x32.ShapeCasts S1x1x32
  shapeCasts_S1x1x32_S1x32 : S1x1x32.ShapeCasts S1x32
  broadcasts_S1x32_S4096x32 : S1x32.Broadcasts S4096x32
  inb_S1x1x256_S1x1x256_0_0_0 : ∀ a, (![0, 0, 0] : Fin 3 → Nat) a + S1x1x256.size a ≤ S1x1x256.size a
  h_S1x1x256 : 0 < S1x1x256.numel
  shapeCasts_S1x1x256_S1x1x256 : S1x1x256.ShapeCasts S1x1x256
  shapeCasts_S1x1x256_S1x256 : S1x1x256.ShapeCasts S1x256
  broadcasts_S1x256_S4096x256 : S1x256.Broadcasts S4096x256
  shapeCasts_S4096x32_S16x256x32 : S4096x32.ShapeCasts S16x256x32
  shapeCasts_S4096x256_S16x256x256 : S4096x256.ShapeCasts S16x256x256
  shapeCasts_S1024x256x256_S4x256x256x256 : S1024x256x256.ShapeCasts S4x256x256x256
  dot_S4096x256_S256x32_S4096x32_1_0_0_1_n_n_wf : DotDims.WF S4096x256 S256x32 S4096x32 [1] [0] [0] [1] [] []
  dot_S4096x256_S256x256_S4096x256_1_0_0_1_n_n_wf : DotDims.WF S4096x256 S256x256 S4096x256 [1] [0] [0] [1] [] []
  dot_S16x256x32_S16x256x32_S16x256x256_2_2_1_1_0_0_wf : DotDims.WF S16x256x32 S16x256x32 S16x256x256 [2] [2] [1] [1] [0] [0]
  dot_S16x256x256_S16x256x256_S16x256x256_2_1_1_2_0_0_wf : DotDims.WF S16x256x256 S16x256x256 S16x256x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x256.size a ≤ S1024x256x256.size a
  hwx0_0 : ∀ i : grid0.Coords, EltTy.bits .f32 = 32 ∨ (Rect.block (s := S1024x256x256) S16x256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x32.size a ≤ S1x1x32.size a
  hwx0_2 : ∀ i : grid0.Coords, EltTy.bits .f32 = 32 ∨ (Rect.block (s := S1x1x32) S1x1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S256x32.size a
  hwx0_3 : ∀ i : grid0.Coords, EltTy.bits .f32 = 32 ∨ (Rect.block (s := S256x32) S256x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1x32.size a ≤ S1x1x32.size a
  hwx0_4 : ∀ i : grid0.Coords, EltTy.bits .f32 = 32 ∨ (Rect.block (s := S1x1x32) S1x1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1x256.size a ≤ S1x1x256.size a
  hwx0_6 : ∀ i : grid0.Coords, EltTy.bits .f32 = 32 ∨ (Rect.block (s := S1x1x256) S1x1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x256x256.size a ≤ S1024x256x256.size a
  hwx0_7 : ∀ i : grid0.Coords, EltTy.bits .f32 = 32 ∨ (Rect.block (s := S1024x256x256) S16x256x256.size (cc0_transform_7 i) (hinb0_7 i)).WholeWords (EltTy.packing .f32)

variable [Facts₀]

def dot_S4096x256_S256x32_S4096x32_1_0_0_1_n_n : DotDims S4096x256 S256x32 S4096x32 where
  lhsContracting := [1]
  rhsContracting := [0]
  lhsNonContracting := [0]
  rhsNonContracting := [1]
  lhsBatch := []
  rhsBatch := []
  wf := dot_S4096x256_S256x32_S4096x32_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S16x256x32_S16x256x32_S16x256x256_2_2_1_1_0_0 : DotDims S16x256x32 S16x256x32 S16x256x256 where
  lhsContracting := [2]
  rhsContracting := [2]
  lhsNonContracting := [1]
  rhsNonContracting := [1]
  lhsBatch := [0]
  rhsBatch := [0]
  wf := dot_S16x256x32_S16x256x32_S16x256x256_2_2_1_1_0_0_wf
def dot_S16x256x256_S16x256x256_S16x256x256_2_1_1_2_0_0 : DotDims S16x256x256 S16x256x256 S16x256x256 where
  lhsContracting := [2]
  rhsContracting := [1]
  lhsNonContracting := [1]
  rhsNonContracting := [2]
  lhsBatch := [0]
  rhsBatch := [0]
  wf := dot_S16x256x256_S16x256x256_S16x256x256_2_1_1_2_0_0_wf

abbrev win0_0 : Pipeline.Window sig grid0 :=
  Pipeline.Window.ofSpec (Memref.whole main_v0) S16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S16x256x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x256x256x256 : Shape := ⟨4, ![4, 256, 256, 256]⟩
abbrev S256x32 : Shape := ⟨2, ![256, 32]⟩
abbrev S32 : Shape := ⟨1, ![32]⟩
abbrev S256x256 : Shape := ⟨2, ![256, 256]⟩
abbrev S256 : Shape := ⟨1, ![256]⟩
abbrev S4x256x256x32 : Shape := ⟨4, ![4, 256, 256, 32]⟩
abbrev S1x1x1x32 : Shape := ⟨4, ![1, 1, 1, 32]⟩
abbrev S1x1x1x256 : Shape := ⟨4, ![1, 1, 1, 256]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4x256x256x256, .f32⟩
  | .hbm, ⟨1, _⟩ => ⟨S256x32, .f32⟩
  | .hbm, ⟨2, _⟩ => ⟨S32, .f32⟩
  | .hbm, ⟨3, _⟩ => ⟨S256x32, .f32⟩
  | .hbm, ⟨4, _⟩ => ⟨S32, .f32⟩
  | .hbm, ⟨5, _⟩ => ⟨S256x256, .f32⟩
  | .hbm, ⟨6, _⟩ => ⟨S256, .f32⟩
  | .hbm, ⟨7, _⟩ => ⟨S4x256x256x32, .f32⟩
  | .hbm, ⟨8, _⟩ => ⟨S1x1x1x32, .f32⟩
  | .hbm, ⟨9, _⟩ => ⟨S4x256x256x32, .f32⟩
  | .hbm, ⟨10, _⟩ => ⟨S4x256x256x32, .f32⟩
  | .hbm, ⟨11, _⟩ => ⟨S4x256x256x32, .f32⟩
  | .hbm, ⟨12, _⟩ => ⟨S1x1x1x32, .f32⟩
  | .hbm, ⟨13, _⟩ => ⟨S4x256x256x32, .f32⟩
  | .hbm, ⟨14, _⟩ => ⟨S4x256x256x32, .f32⟩
  | .hbm, ⟨15, _⟩ => ⟨S4x256x256x256, .f32⟩
  | .hbm, ⟨16, _⟩ => ⟨S1x1x1x256, .f32⟩
  | .hbm, ⟨17, _⟩ => ⟨S4x256x256x256, .f32⟩
  | .hbm, ⟨18, _⟩ => ⟨S4x256x256x256, .f32⟩
  | .hbm, ⟨19, _⟩ => ⟨S4x256x256x256, .f32⟩
  | .hbm, ⟨20, _⟩ => ⟨S4x256x256x256, .f32⟩
  | .hbm, ⟨21, _⟩ => ⟨S4x256x256x256, .f32⟩
  | .hbm, ⟨22, _⟩ => ⟨S_, .f32⟩
  | .hbm, ⟨23, _⟩ => ⟨S4x256x256x256, .f32⟩
  | .hbm, ⟨24, _⟩ => ⟨S4x256x256x256, .f32⟩
  | .hbm, ⟨25, _⟩ => ⟨S_, .f32⟩
  | .hbm, ⟨26, _⟩ => ⟨S4x256x256x256, .f32⟩
  | .hbm, ⟨27, _⟩ => ⟨S4x256x256x256, .f32⟩
  | .hbm, ⟨28, _⟩ => ⟨S4x256x256x256, .f32⟩
  | _, _ => ⟨S4x256x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  bcast_S32_S1x1x1x32_3 : S32.BroadcastsInDim S1x1x1x32 (![3] : Fin 1 → Fin S1x1x1x32.rank)
  bcast_S1x1x1x32_S4x256x256x32_0_1_2_3 : S1x1x1x32.BroadcastsInDim S4x256x256x32 (![0, 1, 2, 3] : Fin 4 → Fin S4x256x256x32.rank)
  bcast_S256_S1x1x1x256_3 : S256.BroadcastsInDim S1x1x1x256 (![3] : Fin 1 → Fin S1x1x1x256.rank)
  bcast_S1x1x1x256_S4x256x256x256_0_1_2_3 : S1x1x1x256.BroadcastsInDim S4x256x256x256 (![0, 1, 2, 3] : Fin 4 → Fin S4x256x256x256.rank)
  bcast_S_S4x256x256x256 : S_.BroadcastsInDim S4x256x256x256 (![] : Fin 0 → Fin S4x256x256x256.rank)
  dot_S4x256x256x256_S256x32_S4x256x256x32_3_0_012_1_n_n_wf : DotDims.WF S4x256x256x256 S256x32 S4x256x256x32 [3] [0] [0, 1, 2] [1] [] []
  dot_S4x256x256x256_S256x256_S4x256x256x256_3_0_012_1_n_n_wf : DotDims.WF S4x256x256x256 S256x256 S4x256x256x256 [3] [0] [0, 1, 2] [1] [] []
  dot_S4x256x256x32_S4x256x256x32_S4x256x256x256_3_3_2_2_01_01_wf : DotDims.WF S4x256x256x32 S4x256x256x32 S4x256x256x256 [3] [3] [2] [2] [0, 1] [0, 1]
  dot_S4x256x256x256_S4x256x256x256_S4x256x256x256_3_2_2_3_01_01_wf : DotDims.WF S4x256x256x256 S4x256x256x256 S4x256x256x256 [3] [2] [2] [3] [0, 1] [0, 1]

variable [Facts₀]

def dot_S4x256x256x256_S256x32_S4x256x256x32_3_0_012_1_n_n : DotDims S4x256x256x256 S256x32 S4x256x256x32 where
  lhsContracting := [3]
  rhsContracting := [0]
  lhsNonContracting := [0, 1, 2]
  rhsNonContracting := [1]
  lhsBatch := []
  rhsBatch := []
  wf := dot_S4x256x256x256_S256x32_S4x256x256x32_3_0_012_1_n_n_wf
def dot_S4x256x256x256_S256x256_S4x256x256x256_3_0_012_1_n_n : DotDims S4x256x256x256 S256x256 S4x256x256x256 where
  lhsContracting := [3]
  rhsContracting := [0]
  lhsNonContracting := [0, 1, 2]
  rhsNonContracting := [1]
  lhsBatch := []
  rhsBatch := []
  wf := dot_S4x256x256x256_S256x256_S4x256x256x256_3_0_012_1_n_n_wf
def dot_S4x256x256x32_S4x256x256x32_S4x256x256x256_3_3_2_2_01_01 : DotDims S4x256x256x32 S4x256x256x32 S4x256x256x256 where
  lhsContracting := [3]
  rhsContracting := [3]
  lhsNonContracting := [2]
  rhsNonContracting := [2]
  lhsBatch := [0, 1]
  rhsBatch := [0, 1]
  wf := dot_S4x256x256x32_S4x256x256x32_S4x256x256x256_3_3_2_2_01_01_wf
def dot_S4x256x256x256_S4x256x256x256_S4x256x256x256_3_2_2_3_01_01 : DotDims S4x256x256x256 S4x256x256x256 S4x256x256x256 where
  lhsContracting := [3]
  rhsContracting := [2]
  lhsNonContracting := [2]
  rhsNonContracting := [3]
  lhsBatch := [0, 1]
  rhsBatch := [0, 1]
  wf := dot_S4x256x256x256_S4x256x256x256_S4x256x256x256_3_2_2_3_01_01_wf

class Facts : Prop extends Facts₀ where

variable [Facts]
-- ==== Proof.LibDotFormats.lean ====
/-
  Matrix products with ONE contracted axis, read at an index, for operands of any float formats.

  Two arrangements of the dimension numbers of a rank-2 product without batch axes:
  * rows by columns: an `A × K` left operand against a `K × B` right operand, the left operand's second axis
    contracted against the right operand's first; entry `(p, q)` is `∑ k, f (p, k) · g (k, q)`;
  * rows by rows: an `A × K` left operand against a `B × K` right operand, the second axis of both contracted
    (the right operand enters transposed); entry `(p, q)` is `∑ k, f (p, k) · g (q, k)`.
  In both the contraction index has the one coordinate `k : Fin K`. Any record with those dimension numbers is
  the library's `DotDims.plain`, respectively `DotDims.transposedRhs`, for which the operand indices compute.
  The operands' element formats are arbitrary (at the ideal values every format is the extended reals), so the
  statements serve a product of half-precision operands accumulated in single precision as well.
-/
import Idealize.ShloMosaic.PureOps.Ideal
import Idealize.ShloMosaic.PureOps.Ideal.Laws
import Idealize.ShloMosaic.Lib.ValueIdx

noncomputable section

namespace Cert.LibDotFormats

open Idealize.ShloMosaic Idealize.ShloMosaic.ValueIdx
open scoped BigOperators

variable {A K B : Nat}

/-! ## Rows by columns: `[A, K] × [K, B]`, dimension numbers `[1] × [0]` -/

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

theorem plain_rank : (DotDims.plain A K B).contr.rank = 1 := rfl
theorem plain_size : (DotDims.plain A K B).contr.size ⟨0, by rw [plain_rank]; exact Nat.one_pos⟩ = K := rfl

theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A product into the zero accumulator, at `(p, q)`: `∑ k, lhs (p, k) · rhs (k, q)`. -/
theorem matmul_cols_zero_apply {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-! ## Rows by rows: `[A, K] × [B, K]`, dimension numbers `[1] × [1]` -/

/-- Dimension numbers `[1] × [1]`, free axes `[0]` and `[0]`, no batch: the record is `DotDims.transposedRhs`. -/
theorem eq_transposedRhs (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) : d = DotDims.transposedRhs A K B := by
  cases d
  simp only at hlc hrc hln hrn hlb hrb
  subst hlc hrc hln hrn hlb hrb
  rfl

theorem rows_rank : (DotDims.transposedRhs A K B).contr.rank = 1 := rfl
theorem rows_size : (DotDims.transposedRhs A K B).contr.size ⟨0, by rw [rows_rank]; exact Nat.one_pos⟩ = K := rfl

theorem rows_lhs (p : Fin A) (q : Fin B) (k : Fin K) :
    (DotDims.transposedRhs A K B).lhsIdx (ix2 p q) ((contrEquiv1 (DotDims.transposedRhs A K B) K rows_rank rows_size).symm k) = ix2 p k := by
  funext a
  apply Fin.ext
  match a with
  | ⟨0, _⟩ => rfl
  | ⟨1, _⟩ => rfl

theorem rows_rhs (p : Fin A) (q : Fin B) (k : Fin K) :
    (DotDims.transposedRhs A K B).rhsIdx (ix2 p q) ((contrEquiv1 (DotDims.transposedRhs A K B) K rows_rank rows_size).symm k) = ix2 q k := by
  funext a
  apply Fin.ext
  match a with
  | ⟨0, _⟩ => rfl
  | ⟨1, _⟩ => rfl

/-- The sum over the contraction index is the sum over `k : Fin K` of `f (p, k) · g (q, k)`. -/
theorem rows_sum (f : (⟨2, ![A, K]⟩ : Shape).Idx → EReal) (g : (⟨2, ![B, K]⟩ : Shape).Idx → EReal) (p : Fin A) (q : Fin B) :
    ∑ k : (DotDims.transposedRhs A K B).contr.Idx,
        f ((DotDims.transposedRhs A K B).lhsIdx (ix2 p q) k) * g ((DotDims.transposedRhs A K B).rhsIdx (ix2 p q) k)
      = ∑ k : Fin K, f (ix2 p k) * g (ix2 q k) := by
  rw [← Equiv.sum_comp (contrEquiv1 (DotDims.transposedRhs A K B) K rows_rank rows_size).symm]
  refine Finset.sum_congr rfl fun k _ => ?_
  rw [rows_lhs, rows_rhs]

/-- A product into the zero accumulator with the right operand contracted on its last axis, at `(p, q)`:
    `∑ k, lhs (p, k) · rhs (q, k)`. -/
theorem matmul_rows_zero_apply {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q) = ∑ k : Fin K, lhs (ix2 p k) * rhs (ix2 q k) := by
  rw [eq_transposedRhs d hlc hrc hln hrn hlb hrb, Ideal.matmul_constant_zero_apply]
  exact rows_sum lhs rhs p q

end Cert.LibDotFormats

end
-- ==== Proof.LibBatchDot.lean ====
/-
  Batched matrix products with one leading batch axis, read at an index, for operands of any float formats.

  Two arrangements of the dimension numbers of a rank-3 product whose first axis is the batch axis of both
  operands and of the result:
  * rows by rows inside each batch item: an `N × I × K` left operand against an `N × J × K` right operand, the
    last axis of both contracted; entry `(n, i, j)` is `∑ k, f (n, i, k) · g (n, j, k)`;
  * rows by columns inside each batch item: an `N × I × J` left operand against an `N × J × O` right operand,
    the left operand's last axis contracted against the right operand's middle axis; entry `(n, i, o)` is
    `∑ j, f (n, i, j) · g (n, j, o)`.
  In both the contraction index has one coordinate. A record with given dimension numbers is determined by them
  up to the proof of its side conditions, on which no operand index depends, so the operand indices compute.
  The operands' element formats are arbitrary (at the ideal values every format is the extended reals).
-/
import Idealize.ShloMosaic.PureOps.Ideal
import Idealize.ShloMosaic.PureOps.Ideal.Laws
import Idealize.ShloMosaic.Lib.ValueIdx

noncomputable section

namespace Cert.LibBatchDot

open Idealize.ShloMosaic Idealize.ShloMosaic.ValueIdx
open scoped BigOperators

/-! ## Rows by rows inside each item: `[N, I, K] × [N, J, K]`, contracting `[2] × [2]`, batch `[0] × [0]` -/

section RowsRows

variable {N I J K : Nat}

/-- The record with these dimension numbers, for any proof of its side conditions. -/
abbrev rr (wf : DotDims.WF ⟨3, ![N, I, K]⟩ ⟨3, ![N, J, K]⟩ ⟨3, ![N, I, J]⟩ [2] [2] [1] [1] [0] [0]) :
    DotDims ⟨3, ![N, I, K]⟩ ⟨3, ![N, J, K]⟩ ⟨3, ![N, I, J]⟩ := ⟨[2], [2], [1], [1], [0], [0], wf⟩

variable (wf : DotDims.WF ⟨3, ![N, I, K]⟩ ⟨3, ![N, J, K]⟩ ⟨3, ![N, I, J]⟩ [2] [2] [1] [1] [0] [0])

/-- The contraction shape has one axis … -/
theorem rr_rank : (rr wf).contr.rank = 1 := rfl
/-- … of extent `K`. -/
theorem rr_size : (rr wf).contr.size ⟨0, by rw [rr_rank]; exact Nat.one_pos⟩ = K := rfl

/-- At result index `(n, i, j)` and contraction coordinate `k` the left operand is read at `(n, i, k)`. -/
theorem rr_lhs (n : Fin N) (i : Fin I) (j : Fin J) (k : Fin K) :
    (rr wf).lhsIdx (ix3 n i j) ((contrEquiv1 (rr wf) K (rr_rank wf) (rr_size wf)).symm k) = ix3 n i k := by
  funext a
  apply Fin.ext
  match a with
  | ⟨0, _⟩ => rfl
  | ⟨1, _⟩ => rfl
  | ⟨2, _⟩ => rfl

/-- … and the right operand at `(n, j, k)`. -/
theorem rr_rhs (n : Fin N) (i : Fin I) (j : Fin J) (k : Fin K) :
    (rr wf).rhsIdx (ix3 n i j) ((contrEquiv1 (rr wf) K (rr_rank wf) (rr_size wf)).symm k) = ix3 n j k := by
  funext a
  apply Fin.ext
  match a with
  | ⟨0, _⟩ => rfl
  | ⟨1, _⟩ => rfl
  | ⟨2, _⟩ => rfl

/-- The sum over the contraction index is the sum over `k : Fin K` of `f (n, i, k) · g (n, j, k)`. -/
theorem rr_sum (f : (⟨3, ![N, I, K]⟩ : Shape).Idx → EReal) (g : (⟨3, ![N, J, K]⟩ : Shape).Idx → EReal)
    (n : Fin N) (i : Fin I) (j : Fin J) :
    ∑ q : (rr wf).contr.Idx, f ((rr wf).lhsIdx (ix3 n i j) q) * g ((rr wf).rhsIdx (ix3 n i j) q)
      = ∑ k : Fin K, f (ix3 n i k) * g (ix3 n j k) := by
  rw [← Equiv.sum_comp (contrEquiv1 (rr wf) K (rr_rank wf) (rr_size wf)).symm]
  refine Finset.sum_congr rfl fun k _ => ?_
  rw [rr_lhs, rr_rhs]

/-- A batched product into the zero accumulator, at `(n, i, j)`: `∑ k, lhs (n, i, k) · rhs (n, j, k)`. -/
theorem matmul_rows_rows_zero_apply {φ₁ φ₂ : FTy} (d : DotDims ⟨3, ![N, I, K]⟩ ⟨3, ![N, J, K]⟩ ⟨3, ![N, I, J]⟩)
    (hlc : d.lhsContracting = [2]) (hrc : d.rhsContracting = [2]) (hln : d.lhsNonContracting = [1])
    (hrn : d.rhsNonContracting = [1]) (hlb : d.lhsBatch = [0]) (hrb : d.rhsBatch = [0])
    (prec : Option ContractPrecision) (lhs : FVec Ideal ⟨3, ![N, I, K]⟩ φ₁) (rhs : FVec Ideal ⟨3, ![N, J, K]⟩ φ₂)
    (n : Fin N) (i : Fin I) (j : Fin J) :
    FloatOps.matmul d prec lhs rhs (constant ⟨3, ![N, I, J]⟩ .f32 0x00000000#32) (ix3 n i j)
      = ∑ k : Fin K, lhs (ix3 n i k) * rhs (ix3 n j k) := by
  obtain ⟨lc, rc, ln, rn, lb, rb, w⟩ := d
  simp only at hlc hrc hln hrn hlb hrb
  subst hlc hrc hln hrn hlb hrb
  rw [Ideal.matmul_constant_zero_apply]
  exact rr_sum w lhs rhs n i j

/-- The host's batched product at `(n, i, j)`, whatever its schedule key: the same sum. -/
theorem dotGeneral_rows_rows_apply {φ₁ φ₂ : FTy} (d : DotDims ⟨3, ![N, I, K]⟩ ⟨3, ![N, J, K]⟩ ⟨3, ![N, I, J]⟩)
    (hlc : d.lhsContracting = [2]) (hrc : d.rhsContracting = [2]) (hln : d.lhsNonContracting = [1])
    (hrn : d.rhsNonContracting = [1]) (hlb : d.lhsBatch = [0]) (hrb : d.rhsBatch = [0])
    (prec : Option ContractPrecision) (sched : HostSchedule) (lhs : FVec Ideal ⟨3, ![N, I, K]⟩ φ₁)
    (rhs : FVec Ideal ⟨3, ![N, J, K]⟩ φ₂) (n : Fin N) (i : Fin I) (j : Fin J) :
    FloatOps.dotGeneral d prec sched lhs rhs (ix3 n i j) = ∑ k : Fin K, lhs (ix3 n i k) * rhs (ix3 n j k) := by
  obtain ⟨lc, rc, ln, rn, lb, rb, w⟩ := d
  simp only at hlc hrc hln hrn hlb hrb
  subst hlc hrc hln hrn hlb hrb
  rw [Ideal.dotGeneral_apply]
  exact rr_sum w lhs rhs n i j

end RowsRows

/-! ## Rows by columns inside each item: `[N, I, J] × [N, J, O]`, contracting `[2] × [1]`, batch `[0] × [0]` -/

section RowsCols

variable {N I J O : Nat}

/-- The record with these dimension numbers, for any proof of its side conditions. -/
abbrev rc (wf : DotDims.WF ⟨3, ![N, I, J]⟩ ⟨3, ![N, J, O]⟩ ⟨3, ![N, I, O]⟩ [2] [1] [1] [2] [0] [0]) :
    DotDims ⟨3, ![N, I, J]⟩ ⟨3, ![N, J, O]⟩ ⟨3, ![N, I, O]⟩ := ⟨[2], [1], [1], [2], [0], [0], wf⟩

variable (wf : DotDims.WF ⟨3, ![N, I, J]⟩ ⟨3, ![N, J, O]⟩ ⟨3, ![N, I, O]⟩ [2] [1] [1] [2] [0] [0])

/-- The contraction shape has one axis … -/
theorem rc_rank : (rc wf).contr.rank = 1 := rfl
/-- … of extent `J`. -/
theorem rc_size : (rc wf).contr.size ⟨0, by rw [rc_rank]; exact Nat.one_pos⟩ = J := rfl

/-- At result index `(n, i, o)` and contraction coordinate `j` the left operand is read at `(n, i, j)`. -/
theorem rc_lhs (n : Fin N) (i : Fin I) (o : Fin O) (j : Fin J) :
    (rc wf).lhsIdx (ix3 n i o) ((contrEquiv1 (rc wf) J (rc_rank wf) (rc_size wf)).symm j) = ix3 n i j := by
  funext a
  apply Fin.ext
  match a with
  | ⟨0, _⟩ => rfl
  | ⟨1, _⟩ => rfl
  | ⟨2, _⟩ => rfl

/-- … and the right operand at `(n, j, o)`. -/
theorem rc_rhs (n : Fin N) (i : Fin I) (o : Fin O) (j : Fin J) :
    (rc wf).rhsIdx (ix3 n i o) ((contrEquiv1 (rc wf) J (rc_rank wf) (rc_size wf)).symm j) = ix3 n j o := by
  funext a
  apply Fin.ext
  match a with
  | ⟨0, _⟩ => rfl
  | ⟨1, _⟩ => rfl
  | ⟨2, _⟩ => rfl

/-- The sum over the contraction index is the sum over `j : Fin J` of `f (n, i, j) · g (n, j, o)`. -/
theorem rc_sum (f : (⟨3, ![N, I, J]⟩ : Shape).Idx → EReal) (g : (⟨3, ![N, J, O]⟩ : Shape).Idx → EReal)
    (n : Fin N) (i : Fin I) (o : Fin O) :
    ∑ q : (rc wf).contr.Idx, f ((rc wf).lhsIdx (ix3 n i o) q) * g ((rc wf).rhsIdx (ix3 n i o) q)
      = ∑ j : Fin J, f (ix3 n i j) * g (ix3 n j o) := by
  rw [← Equiv.sum_comp (contrEquiv1 (rc wf) J (rc_rank wf) (rc_size wf)).symm]
  refine Finset.sum_congr rfl fun j _ => ?_
  rw [rc_lhs, rc_rhs]

/-- A batched product into the zero accumulator, at `(n, i, o)`: `∑ j, lhs (n, i, j) · rhs (n, j, o)`. -/
theorem matmul_rows_cols_zero_apply {φ₁ φ₂ : FTy} (d : DotDims ⟨3, ![N, I, J]⟩ ⟨3, ![N, J, O]⟩ ⟨3, ![N, I, O]⟩)
    (hlc : d.lhsContracting = [2]) (hrc : d.rhsContracting = [1]) (hln : d.lhsNonContracting = [1])
    (hrn : d.rhsNonContracting = [2]) (hlb : d.lhsBatch = [0]) (hrb : d.rhsBatch = [0])
    (prec : Option ContractPrecision) (lhs : FVec Ideal ⟨3, ![N, I, J]⟩ φ₁) (rhs : FVec Ideal ⟨3, ![N, J, O]⟩ φ₂)
    (n : Fin N) (i : Fin I) (o : Fin O) :
    FloatOps.matmul d prec lhs rhs (constant ⟨3, ![N, I, O]⟩ .f32 0x00000000#32) (ix3 n i o)
      = ∑ j : Fin J, lhs (ix3 n i j) * rhs (ix3 n j o) := by
  obtain ⟨lc, rc', ln, rn, lb, rb, w⟩ := d
  simp only at hlc hrc hln hrn hlb hrb
  subst hlc hrc hln hrn hlb hrb
  rw [Ideal.matmul_constant_zero_apply]
  exact rc_sum w lhs rhs n i o

/-- The host's batched product at `(n, i, o)`, whatever its schedule key: the same sum. -/
theorem dotGeneral_rows_cols_apply {φ₁ φ₂ : FTy} (d : DotDims ⟨3, ![N, I, J]⟩ ⟨3, ![N, J, O]⟩ ⟨3, ![N, I, O]⟩)
    (hlc : d.lhsContracting = [2]) (hrc : d.rhsContracting = [1]) (hln : d.lhsNonContracting = [1])
    (hrn : d.rhsNonContracting = [2]) (hlb : d.lhsBatch = [0]) (hrb : d.rhsBatch = [0])
    (prec : Option ContractPrecision) (sched : HostSchedule) (lhs : FVec Ideal ⟨3, ![N, I, J]⟩ φ₁)
    (rhs : FVec Ideal ⟨3, ![N, J, O]⟩ φ₂) (n : Fin N) (i : Fin I) (o : Fin O) :
    FloatOps.dotGeneral d prec sched lhs rhs (ix3 n i o) = ∑ j : Fin J, lhs (ix3 n i j) * rhs (ix3 n j o) := by
  obtain ⟨lc, rc', ln, rn, lb, rb, w⟩ := d
  simp only at hlc hrc hln hrn hlb hrb
  subst hlc hrc hln hrn hlb hrb
  rw [Ideal.dotGeneral_apply]
  exact rc_sum w lhs rhs n i o

end RowsCols

end Cert.LibBatchDot

end
-- ==== Proof.LibLeadingAxes.lean ====
/-
  Shape casts that merge or split the two LEADING axes, read at an index.

  A row-major array of extents `a × b × c` and one of extents `n × c` with `n = a · b` hold the same entries in
  the same order: entry `(i, j, k)` of the first is entry `(i · b + j, k)` of the second. The same with one more
  trailing axis: `(i, j, k, l)` of an `a × b × c × d` array is `(i · b + j, k, l)` of the `n × c × d` one. Each
  statement takes the merged row `r` with the equation `r = i · b + j`, so it serves in both directions of use
  (from a pair to its row, or from a row to its quotient and remainder); any sizes and element type.
-/
import Idealize.ShloMosaic.Lib.ValueIdx
import Idealize.ShloMosaic.Lib.Pipeline.Value

noncomputable section

namespace Cert.LibLeadingAxes

open Idealize.ShloMosaic Idealize.ShloMosaic.ValueIdx

variable {α : Type} {a b c d n : Nat}

/-- `[a, b, c]` cast to `[n, c]`: entry `(r, k)` with `r = i · b + j` is the operand's `(i, j, k)`. -/
theorem merge3_apply (x : (⟨3, ![a, b, c]⟩ : Shape).Idx → α) (h : (⟨3, ![a, b, c]⟩ : Shape).ShapeCasts ⟨2, ![n, c]⟩)
    (i : Fin a) (j : Fin b) (k : Fin c) (r : Fin n) (hr : r.val = i.val * b + j.val) :
    shapeCast ⟨2, ![n, c]⟩ x h (ix2 r k) = x (ix3 i j k) :=
  shapeCast_apply x h (ix2 r k) (ix3 i j k) (by
    rw [Shape.rowMajor_val_three, Shape.rowMajor_val_two]
    show (i.val * b + j.val) * c + k.val = r.val * c + k.val
    rw [hr])

/-- `[n, c]` cast to `[a, b, c]`: entry `(i, j, k)` is the operand's `(r, k)` with `r = i · b + j`. -/
theorem split3_apply (y : (⟨2, ![n, c]⟩ : Shape).Idx → α) (h : (⟨2, ![n, c]⟩ : Shape).ShapeCasts ⟨3, ![a, b, c]⟩)
    (i : Fin a) (j : Fin b) (k : Fin c) (r : Fin n) (hr : r.val = i.val * b + j.val) :
    shapeCast ⟨3, ![a, b, c]⟩ y h (ix3 i j k) = y (ix2 r k) :=
  shapeCast_apply y h (ix3 i j k) (ix2 r k) (by
    rw [Shape.rowMajor_val_three, Shape.rowMajor_val_two]
    show r.val * c + k.val = (i.val * b + j.val) * c + k.val
    rw [hr])

/-- `[a, b, c, d]` cast to `[n, c, d]`: entry `(r, k, l)` with `r = i · b + j` is the operand's `(i, j, k, l)`. -/
theorem merge4_apply (x : (⟨4, ![a, b, c, d]⟩ : Shape).Idx → α)
    (h : (⟨4, ![a, b, c, d]⟩ : Shape).ShapeCasts ⟨3, ![n, c, d]⟩)
    (i : Fin a) (j : Fin b) (k : Fin c) (l : Fin d) (r : Fin n) (hr : r.val = i.val * b + j.val) :
    shapeCast ⟨3, ![n, c, d]⟩ x h (ix3 r k l) = x (ix4 i j k l) :=
  shapeCast_apply x h (ix3 r k l) (ix4 i j k l) (by
    rw [Shape.rowMajor_val_four, Shape.rowMajor_val_three]
    show ((i.val * b + j.val) * c + k.val) * d + l.val = (r.val * c + k.val) * d + l.val
    rw [hr])

/-- `[n, c, d]` cast to `[a, b, c, d]`: entry `(i, j, k, l)` is the operand's `(r, k, l)` with `r = i · b + j`. -/
theorem split4_apply (y : (⟨3, ![n, c, d]⟩ : Shape).Idx → α)
    (h : (⟨3, ![n, c, d]⟩ : Shape).ShapeCasts ⟨4, ![a, b, c, d]⟩)
    (i : Fin a) (j : Fin b) (k : Fin c) (l : Fin d) (r : Fin n) (hr : r.val = i.val * b + j.val) :
    shapeCast ⟨4, ![a, b, c, d]⟩ y h (ix4 i j k l) = y (ix3 r k l) :=
  shapeCast_apply y h (ix4 i j k l) (ix3 r k l) (by
    rw [Shape.rowMajor_val_four, Shape.rowMajor_val_three]
    show (r.val * c + k.val) * d + l.val = ((i.val * b + j.val) * c + k.val) * d + l.val
    rw [hr])

end Cert.LibLeadingAxes

end
-- ==== Proof.Spec.lean ====
/-
  What both programs compute, for one image row of the batch.

  One item is a slab `x : W × C` (here 256 × 256). With three affine maps along the channel axis,
      f = x · Wf + bf  (W × 32),   g = x · Wg + bg  (W × 32),   h = x · Wh + bh  (W × 256),
  the result at row `i` and channel `o` is the gated sum over the positions `j` of the row
      out (i, o) = ∑ j, σ (∑ k, f (i, k) · g (j, k)) · h (j, o),      σ s = 1 / (1 + e^(-s)),
  all sums and products taken on the extended reals in this order. No law of arithmetic is needed to join the
  two programs: they differ in how the items are laid out (four axes, or the first two merged and cut into
  groups of sixteen) and in how the gate is spelt (one operation, or negate, exponential, add and divide).
-/
import Idealize.ShloMosaic.PureOps.Ideal
import Idealize.ShloMosaic.Lib.IdealHost

noncomputable section

namespace Cert.Attn

open Idealize.ShloMosaic
open scoped BigOperators

/-- One affine map along the channel axis: entry `(w, k)` of `x · Wt + b`. -/
def proj {W C K : Nat} (x : Fin W → Fin C → EReal) (Wt : Fin C → Fin K → EReal) (b : Fin K → EReal)
    (w : Fin W) (k : Fin K) : EReal :=
  (∑ c : Fin C, x w c * Wt c k) + b k

/-- The gated sum of one item at row `i`, channel `o`. -/
def attnAt (x : Fin 256 → Fin 256 → EReal) (Wf : Fin 256 → Fin 32 → EReal) (bf : Fin 32 → EReal)
    (Wg : Fin 256 → Fin 32 → EReal) (bg : Fin 32 → EReal) (Wh : Fin 256 → Fin 256 → EReal) (bh : Fin 256 → EReal)
    (i o : Fin 256) : EReal :=
  ∑ j : Fin 256, Ideal.logistic (∑ k : Fin 32, proj x Wf bf i k * proj x Wg bg j k) * proj x Wh bh j o

/-- The gate spelt with the single-precision word of one, a negation, an exponential, a sum and a quotient is the
    logistic function, on every extended real. -/
theorem logistic_spelt (s : EReal) :
    Ideal.div (Ideal.ofBits .f32 0x3F800000#32) (Ideal.ofBits .f32 0x3F800000#32 + Ideal.exp (-s)) = Ideal.logistic s := by
  rw [Ideal.ofBits_one_f32]
  rfl

end Cert.Attn

end
-- ==== Proof.KernelBlock.lean ====
/-
  One grid step of the kernel, read at an index.

  A step holds sixteen items as one block `x0 : 16 × 256 × 256`. The body merges the first two axes (row
  `r = nn · 256 + w` of a `4096 × 256` matrix is position `w` of item `nn`), applies the three affine maps to all
  4096 rows at once, splits the rows back into items, and forms per item the gated sum. So entry `(nn, i, o)` of
  what the step stores is the gated sum of item `nn` of the block at `(i, o)`. Changes of float format are the
  identity on the ideal values.
-/
import proofs.«128397_j15032385536186_1_alg».proof.Proof.Gen.KernelIdeal.Skeleton
import proofs.«128397_j15032385536186_1_alg».proof.Proof.LibDotFormats
import proofs.«128397_j15032385536186_1_alg».proof.Proof.LibBatchDot
import proofs.«128397_j15032385536186_1_alg».proof.Proof.LibLeadingAxes
import proofs.«128397_j15032385536186_1_alg».proof.Proof.Spec
import Idealize.ShloMosaic.Lib.ValueIdx
import Idealize.ShloMosaic.Lib.ValueLayout
import Idealize.ShloMosaic.Lib.Pipeline.Value

noncomputable section

namespace Cert.KernelIdeal.Block

open Cert.KernelIdeal Cert.KernelIdeal.Gen Idealize.ShloMosaic Idealize.ShloMosaic.ValueIdx Cert.Attn
open scoped BigOperators

/-- Row `nn · 256 + w` of the merged matrix: position `w` of item `nn`. -/
def row (nn : Fin 16) (w : Fin 256) : Fin 4096 := ⟨nn.val * 256 + w.val, by have := nn.isLt; have := w.isLt; omega⟩

theorem row_val (nn : Fin 16) (w : Fin 256) : (row nn w).val = nn.val * 256 + w.val := rfl

/-- The gate applied to an array, read at an index. -/
theorem logistic_apply {s : Shape} {φ : FTy} (a : FVec Ideal s φ) (i : s.Idx) : logistic a i = Ideal.logistic (a i) := rfl

/-- The merged block at row `(nn, w)`, channel `c`, is the block at `(nn, w, c)`. -/
theorem flat_apply (v0 : FVec Ideal S16x256x256 .f32) (nn : Fin 16) (w c : Fin 256) :
    k0_pay2 (F := Ideal) v0 (ix2 (row nn w) c) = v0 (ix3 nn w c) := by
  unfold k0_pay2
  refine (Cert.LibLeadingAxes.merge3_apply _ _ nn w c (row nn w) (row_val nn w)).trans ?_
  exact congrFun (shapeCast_self v0 _) (ix3 nn w c)

/-- A bias held as `1 × 1 × K`, cast to one row and spread over all rows, read at `(r, k)`. -/
theorem bias_apply {K : Nat} (bb : FVec Ideal ⟨3, ![1, 1, K]⟩ .f32)
    (h1 : (⟨3, ![1, 1, K]⟩ : Shape).ShapeCasts ⟨3, ![1, 1, K]⟩) (h2 : (⟨3, ![1, 1, K]⟩ : Shape).ShapeCasts ⟨2, ![1, K]⟩)
    (h3 : (⟨2, ![1, K]⟩ : Shape).Broadcasts ⟨2, ![4096, K]⟩) (r : Fin 4096) (k : Fin K) :
    broadcastTo ⟨2, ![4096, K]⟩ (shapeCast ⟨2, ![1, K]⟩ (shapeCast ⟨3, ![1, 1, K]⟩ bb h1) h2) h3 (ix2 r k)
      = bb (ix3 (0 : Fin 1) (0 : Fin 1) k) :=
  (broadcastTo_1b_ab_apply _ h3 r k).trans
    ((shapeCast_1ab_ab_apply _ h2 (0 : Fin 1) k).trans (congrFun (shapeCast_self bb h1) _))

/-- One affine map applied to all rows at once, read at row `(nn, w)`, column `k`. -/
theorem proj_apply {K : Nat} (d : DotDims ⟨2, ![4096, 256]⟩ ⟨2, ![256, K]⟩ ⟨2, ![4096, K]⟩)
    (hlc : d.lhsContracting = [1]) (hrc : d.rhsContracting = [0]) (hln : d.lhsNonContracting = [0])
    (hrn : d.rhsNonContracting = [1]) (hlb : d.lhsBatch = []) (hrb : d.rhsBatch = [])
    (v0 : FVec Ideal S16x256x256 .f32) (Wt : FVec Ideal ⟨2, ![256, K]⟩ .f32) (hbits : FTy.bits .bf16 < FTy.bits .f32)
    (bb : FVec Ideal ⟨3, ![1, 1, K]⟩ .f32)
    (h1 : (⟨3, ![1, 1, K]⟩ : Shape).ShapeCasts ⟨3, ![1, 1, K]⟩) (h2 : (⟨3, ![1, 1, K]⟩ : Shape).ShapeCasts ⟨2, ![1, K]⟩)
    (h3 : (⟨2, ![1, K]⟩ : Shape).Broadcasts ⟨2, ![4096, K]⟩) (nn : Fin 16) (w : Fin 256) (k : Fin K) :
    addf (matmul d none (k0_pay2 (F := Ideal) v0) (truncf .bf16 Wt hbits) (constant ⟨2, ![4096, K]⟩ .f32 0x00000000#32))
        (broadcastTo ⟨2, ![4096, K]⟩ (shapeCast ⟨2, ![1, K]⟩ (shapeCast ⟨3, ![1, 1, K]⟩ bb h1) h2) h3) (ix2 (row nn w) k)
      = proj (fun w c => v0 (ix3 nn w c)) (fun c k => Wt (ix2 c k)) (fun k => bb (ix3 (0 : Fin 1) (0 : Fin 1) k)) w k := by
  rw [addf_apply, bias_apply]
  unfold proj
  refine congrArg (· + _) ?_
  refine (Cert.LibDotFormats.matmul_cols_zero_apply d hlc hrc hln hrn hlb hrb none _ _ (row nn w) k).trans
    (Finset.sum_congr rfl fun c _ => ?_)
  rw [flat_apply v0 nn w c, truncf_apply]

/-- The third affine map of the step (`x · Wh + bh`), split back into items: entry `(nn, j, o)`. -/
theorem pay3_apply (v0 : FVec Ideal S16x256x256 .f32) (v8 : FVec Ideal S256x256 .f32) (v23 : FVec Ideal S1x1x256 .f32)
    (nn : Fin 16) (j o : Fin 256) :
    k0_pay3 (F := Ideal) v0 v8 v23 (ix3 nn j o)
      = proj (fun w c => v0 (ix3 nn w c)) (fun c k => v8 (ix2 c k)) (fun k => v23 (ix3 (0 : Fin 1) (0 : Fin 1) k)) j o := by
  unfold k0_pay3
  refine (truncf_apply (φ := .f32) (ψ := .bf16) _ _ (ix3 nn j o)).trans ?_
  refine (Cert.LibLeadingAxes.split3_apply _ _ nn j o (row nn j) (row_val nn j)).trans ?_
  exact proj_apply dot_S4096x256_S256x256_S4096x256_1_0_0_1_n_n rfl rfl rfl rfl rfl rfl v0 v8 _ v23 _ _ _ nn j o

/-- The gate of the step: entry `(nn, i, j)` is the logistic function of `∑ k, f (i, k) · g (j, k)` of item `nn`. -/
theorem pay4_apply (v0 : FVec Ideal S16x256x256 .f32) (v4 v6 : FVec Ideal S256x32 .f32) (v11 v17 : FVec Ideal S1x1x32 .f32)
    (nn : Fin 16) (i j : Fin 256) :
    k0_pay4 (F := Ideal) v0 v4 v6 v11 v17 (ix3 nn i j)
      = Ideal.logistic (∑ k : Fin 32,
          proj (fun w c => v0 (ix3 nn w c)) (fun c k => v4 (ix2 c k)) (fun k => v11 (ix3 (0 : Fin 1) (0 : Fin 1) k)) i k
          * proj (fun w c => v0 (ix3 nn w c)) (fun c k => v6 (ix2 c k)) (fun k => v17 (ix3 (0 : Fin 1) (0 : Fin 1) k)) j k) := by
  unfold k0_pay4
  refine (truncf_apply (φ := .f32) (ψ := .bf16) _ _ (ix3 nn i j)).trans ?_
  refine (logistic_apply _ (ix3 nn i j)).trans (congrArg Ideal.logistic ?_)
  refine (Cert.LibBatchDot.matmul_rows_rows_zero_apply dot_S16x256x32_S16x256x32_S16x256x256_2_2_1_1_0_0
    rfl rfl rfl rfl rfl rfl none _ _ nn i j).trans (Finset.sum_congr rfl fun k _ => ?_)
  refine congrArg₂ (· * ·) ?_ ?_
  · refine (truncf_apply (φ := .f32) (ψ := .bf16) _ _ (ix3 nn i k)).trans ?_
    refine (Cert.LibLeadingAxes.split3_apply _ _ nn i k (row nn i) (row_val nn i)).trans ?_
    exact proj_apply dot_S4096x256_S256x32_S4096x32_1_0_0_1_n_n rfl rfl rfl rfl rfl rfl v0 v4 _ v11 _ _ _ nn i k
  · refine (truncf_apply (φ := .f32) (ψ := .bf16) _ _ (ix3 nn j k)).trans ?_
    refine (Cert.LibLeadingAxes.split3_apply _ _ nn j k (row nn j) (row_val nn j)).trans ?_
    exact proj_apply dot_S4096x256_S256x32_S4096x32_1_0_0_1_n_n rfl rfl rfl rfl rfl rfl v0 v6 _ v17 _ _ _ nn j k

/-- What the step stores, at `(nn, i, o)`: the gated sum of item `nn` of the block. The weights are read as they
    stand; a bias held as `1 × 1 × K` is read along its last axis. -/
theorem step_apply (x0 : FVec Ideal S16x256x256 .f32) (x1 : FVec Ideal S256x32 .f32) (x2 : FVec Ideal S1x1x32 .f32)
    (x3 : FVec Ideal S256x32 .f32) (x4 : FVec Ideal S1x1x32 .f32) (x5 : FVec Ideal S256x256 .f32)
    (x6 : FVec Ideal S1x1x256 .f32) (nn : Fin 16) (i o : Fin 256) :
    k0_pay1 (F := Ideal) (k0_pay3 x0 x5 x6) (k0_pay4 x0 x1 x3 x2 x4) (ix3 nn i o)
      = attnAt (fun w c => x0 (ix3 nn w c)) (fun c k => x1 (ix2 c k)) (fun k => x2 (ix3 (0 : Fin 1) (0 : Fin 1) k))
          (fun c k => x3 (ix2 c k)) (fun k => x4 (ix3 (0 : Fin 1) (0 : Fin 1) k))
          (fun c k => x5 (ix2 c k)) (fun k => x6 (ix3 (0 : Fin 1) (0 : Fin 1) k)) i o := by
  unfold k0_pay1 attnAt
  refine (Cert.LibBatchDot.matmul_rows_cols_zero_apply dot_S16x256x256_S16x256x256_S16x256x256_2_1_1_2_0_0
    rfl rfl rfl rfl rfl rfl none _ _ nn i o).trans (Finset.sum_congr rfl fun j _ => ?_)
  rw [pay4_apply x0 x1 x3 x2 x4 nn i j, pay3_apply x0 x5 x6 nn j o]

end Cert.KernelIdeal.Block

end
-- ==== Proof.KernelArray.lean ====
/-
  From the grid steps to the whole array.

  The call runs 64 steps; step `t` reads items `16 t … 16 t + 15` of the merged array `1024 × 256 × 256` (and the six
  weight and bias arrays whole, the same at every step) and writes the same items of the result. Each step writes, at
  `(nn, i, o)` of its block, the gated sum of item `16 t + nn` at `(i, o)`: a function of the array index alone. The
  64 blocks tile the result (item `n` lies in block `n / 16`), so after the last step the result array holds, at every
  `(n, i, o)`, the gated sum of item `n` of the merged input.
-/
import proofs.«128397_j15032385536186_1_alg».proof.Proof.Gen.KernelIdeal.Frame
import proofs.«128397_j15032385536186_1_alg».proof.Proof.KernelBlock
import Idealize.ShloMosaic.Lib.Pipeline.Value
import Idealize.ShloMosaic.Lib.ValueIdx

set_option maxRecDepth 16384

noncomputable section

namespace Cert.KernelIdeal.Arr

open Cert.KernelIdeal Cert.KernelIdeal.Gen Cert.KernelIdeal.Block Cert.Attn
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The result array as one function of the seven arrays the call reads -/

/-- Entry `(n, i, o)`: the gated sum of item `n` of the merged input at `(i, o)`; a bias held as `1 × 1 × K` is read
    along its last axis. -/
def G3 (X3 : S1024x256x256.Idx → Elt Ideal .f32) (Wf : S256x32.Idx → Elt Ideal .f32) (bf : S1x1x32.Idx → Elt Ideal .f32)
    (Wg : S256x32.Idx → Elt Ideal .f32) (bg : S1x1x32.Idx → Elt Ideal .f32) (Wh : S256x256.Idx → Elt Ideal .f32)
    (bh : S1x1x256.Idx → Elt Ideal .f32) : S1024x256x256.Idx → Elt Ideal .f32 := fun z =>
  attnAt (fun w c => X3 (ix3 (⟨(z 0).val, (z 0).isLt⟩ : Fin 1024) w c))
    (fun c k => Wf (ix2 c k)) (fun k => bf (ix3 (0 : Fin 1) (0 : Fin 1) k))
    (fun c k => Wg (ix2 c k)) (fun k => bg (ix3 (0 : Fin 1) (0 : Fin 1) k))
    (fun c k => Wh (ix2 c k)) (fun k => bh (ix3 (0 : Fin 1) (0 : Fin 1) k))
    (⟨(z 1).val, (z 1).isLt⟩ : Fin 256) (⟨(z 2).val, (z 2).isLt⟩ : Fin 256)

theorem G3_apply (X3 : S1024x256x256.Idx → Elt Ideal .f32) (Wf : S256x32.Idx → Elt Ideal .f32) (bf : S1x1x32.Idx → Elt Ideal .f32)
    (Wg : S256x32.Idx → Elt Ideal .f32) (bg : S1x1x32.Idx → Elt Ideal .f32) (Wh : S256x256.Idx → Elt Ideal .f32)
    (bh : S1x1x256.Idx → Elt Ideal .f32) (n : Fin 1024) (i o : Fin 256) :
    G3 X3 Wf bf Wg bg Wh bh (ix3 n i o)
      = attnAt (fun w c => X3 (ix3 n w c)) (fun c k => Wf (ix2 c k)) (fun k => bf (ix3 (0 : Fin 1) (0 : Fin 1) k))
          (fun c k => Wg (ix2 c k)) (fun k => bg (ix3 (0 : Fin 1) (0 : Fin 1) k))
          (fun c k => Wh (ix2 c k)) (fun k => bh (ix3 (0 : Fin 1) (0 : Fin 1) k)) i o := rfl

/-- One step against the array function: if the step's input block is items `16 tt + nn` of `X3` and its other six
    blocks are the whole weight and bias arrays, then what it stores at `y` is `G3` at the array index `z` whose item
    is `16 tt +` the block's and whose other coordinates are `y`'s. -/
theorem step_eq (x0 : FVec Ideal S16x256x256 .f32) (x1 : FVec Ideal S256x32 .f32) (x2 : FVec Ideal S1x1x32 .f32)
    (x3 : FVec Ideal S256x32 .f32) (x4 : FVec Ideal S1x1x32 .f32) (x5 : FVec Ideal S256x256 .f32) (x6 : FVec Ideal S1x1x256 .f32)
    (X3 : S1024x256x256.Idx → Elt Ideal .f32) (Wf : S256x32.Idx → Elt Ideal .f32) (bf : S1x1x32.Idx → Elt Ideal .f32)
    (Wg : S256x32.Idx → Elt Ideal .f32) (bg : S1x1x32.Idx → Elt Ideal .f32) (Wh : S256x256.Idx → Elt Ideal .f32)
    (bh : S1x1x256.Idx → Elt Ideal .f32) (tt : Nat)
    (h0 : ∀ (nn : Fin 16) (w cc : Fin 256) (n : Fin 1024), n.val = tt * 16 + nn.val → x0 (ix3 nn w cc) = X3 (ix3 n w cc))
    (h1 : ∀ (cc : Fin 256) (k : Fin 32), x1 (ix2 cc k) = Wf (ix2 cc k))
    (h2 : ∀ k : Fin 32, x2 (ix3 (0 : Fin 1) (0 : Fin 1) k) = bf (ix3 (0 : Fin 1) (0 : Fin 1) k))
    (h3 : ∀ (cc : Fin 256) (k : Fin 32), x3 (ix2 cc k) = Wg (ix2 cc k))
    (h4 : ∀ k : Fin 32, x4 (ix3 (0 : Fin 1) (0 : Fin 1) k) = bg (ix3 (0 : Fin 1) (0 : Fin 1) k))
    (h5 : ∀ (cc k : Fin 256), x5 (ix2 cc k) = Wh (ix2 cc k))
    (h6 : ∀ k : Fin 256, x6 (ix3 (0 : Fin 1) (0 : Fin 1) k) = bh (ix3 (0 : Fin 1) (0 : Fin 1) k))
    (y : S16x256x256.Idx) (z : S1024x256x256.Idx)
    (hz0 : (z 0).val = tt * 16 + (y 0).val) (hz1 : (z 1).val = (y 1).val) (hz2 : (z 2).val = (y 2).val) :
    k0_pay1 (F := Ideal) (k0_pay3 x0 x5 x6) (k0_pay4 x0 x1 x3 x2 x4) y = G3 X3 Wf bf Wg bg Wh bh z := by
  obtain ⟨nn, i, o, rfl⟩ : ∃ (nn : Fin 16) (i o : Fin 256), y = ix3 nn i o := ⟨y 0, y 1, y 2, eq_ix3 y⟩
  rw [step_apply]
  unfold G3
  have e0 : (fun (w cc : Fin 256) => x0 (ix3 nn w cc)) = fun w cc => X3 (ix3 (⟨(z 0).val, (z 0).isLt⟩ : Fin 1024) w cc) :=
    funext fun w => funext fun cc => h0 nn w cc _ hz0
  have e1 : (fun (cc : Fin 256) (k : Fin 32) => x1 (ix2 cc k)) = fun cc k => Wf (ix2 cc k) := funext fun cc => funext fun k => h1 cc k
  have e2 : (fun k : Fin 32 => x2 (ix3 (0 : Fin 1) (0 : Fin 1) k)) = fun k => bf (ix3 (0 : Fin 1) (0 : Fin 1) k) := funext h2
  have e3 : (fun (cc : Fin 256) (k : Fin 32) => x3 (ix2 cc k)) = fun cc k => Wg (ix2 cc k) := funext fun cc => funext fun k => h3 cc k
  have e4 : (fun k : Fin 32 => x4 (ix3 (0 : Fin 1) (0 : Fin 1) k)) = fun k => bg (ix3 (0 : Fin 1) (0 : Fin 1) k) := funext h4
  have e5 : (fun (cc k : Fin 256) => x5 (ix2 cc k)) = fun cc k => Wh (ix2 cc k) := funext fun cc => funext fun k => h5 cc k
  have e6 : (fun k : Fin 256 => x6 (ix3 (0 : Fin 1) (0 : Fin 1) k)) = fun k => bh (ix3 (0 : Fin 1) (0 : Fin 1) k) := funext h6
  have ei : i = (⟨(z 1).val, (z 1).isLt⟩ : Fin 256) := Fin.ext hz1.symm
  have eo : o = (⟨(z 2).val, (z 2).isLt⟩ : Fin 256) := Fin.ext hz2.symm
  rw [e0, e1, e2, e3, e4, e5, e6, ← ei, ← eo]

/-! ## The index maps, decided once over the grid -/

theorem hz3 : (![0, 0, 0] : Fin 3 → Nat) = fun _ => 0 := funext fun a => by fin_cases a <;> rfl
theorem hz2 : (![0, 0] : Fin 2 → Nat) = fun _ => 0 := funext fun a => by fin_cases a <;> rfl

/-- The input block and the output block of step `t` are block `t` along the item axis, whole along the others. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx7 : ∀ t : Fin cfg0.N, win0_7.index t (0 : Fin 3) = t.val ∧ win0_7.index t (1 : Fin 3) = 0 ∧ win0_7.index t (2 : Fin 3) = 0 :=
  (by decide +kernel : ∀ t : Fin grid0.N, _)
/-- The weight and bias blocks are the whole arrays at every step. -/
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 3) = 0 ∧ win0_6.index t (1 : Fin 3) = 0 ∧ win0_6.index t (2 : Fin 3) = 0 :=
  (by decide +kernel : ∀ t : Fin grid0.N, _)

/-! ## What each block of a step holds -/

/-- Step `t`'s input block at `(nn, w, cc)` is the merged input at item `16 t + nn`. -/
theorem read0 (c : Dev nD) (t : Fin cfg0.N) (nn : Fin 16) (w cc : Fin 256) (n : Fin 1024) (hn : n.val = t.val * 16 + nn.val) :
    iblk m c 0 t (ix3 nn w cc) = V m c main_v0 (ix3 n w cc) := by
  show V m c main_v0 (((cfg0.win 0).blk t).view.emb (ix3 nn w cc)) = V m c main_v0 (ix3 n w cc)
  refine congrArg (V m c main_v0) (funext fun a => Fin.ext ?_)
  obtain ⟨e0, e1, e2⟩ := idx0 t
  match a with
  | ⟨0, _⟩ => show win0_0.index t (0 : Fin 3) * 16 + 1 * nn.val = n.val; omega
  | ⟨1, _⟩ => show win0_0.index t (1 : Fin 3) * 256 + 1 * w.val = w.val; omega
  | ⟨2, _⟩ => show win0_0.index t (2 : Fin 3) * 256 + 1 * cc.val = cc.val; omega

theorem read1 (c : Dev nD) (t : Fin cfg0.N) (cc : Fin 256) (k : Fin 32) :
    iblk m c 1 t (ix2 cc k) = V m c main_arg1 (ix2 cc k) := by
  show V m c main_arg1 (((cfg0.win 1).blk t).view.emb (ix2 cc k)) = V m c main_arg1 (ix2 cc k)
  refine congrArg (V m c main_arg1) (funext fun a => Fin.ext ?_)
  obtain ⟨e0, e1⟩ := idx1 t
  match a with
  | ⟨0, _⟩ => show win0_1.index t (0 : Fin 2) * 256 + 1 * cc.val = cc.val; omega
  | ⟨1, _⟩ => show win0_1.index t (1 : Fin 2) * 32 + 1 * k.val = k.val; omega

theorem read2 (c : Dev nD) (t : Fin cfg0.N) (k : Fin 32) :
    iblk m c 2 t (ix3 (0 : Fin 1) (0 : Fin 1) k) = V m c main_v1 (ix3 (0 : Fin 1) (0 : Fin 1) k) := by
  show V m c main_v1 (((cfg0.win 2).blk t).view.emb (ix3 (0 : Fin 1) (0 : Fin 1) k)) = V m c main_v1 (ix3 (0 : Fin 1) (0 : Fin 1) k)
  refine congrArg (V m c main_v1) (funext fun a => Fin.ext ?_)
  obtain ⟨e0, e1, e2⟩ := idx2 t
  match a with
  | ⟨0, _⟩ => show win0_2.index t (0 : Fin 3) * 1 + 1 * 0 = 0; omega
  | ⟨1, _⟩ => show win0_2.index t (1 : Fin 3) * 1 + 1 * 0 = 0; omega
  | ⟨2, _⟩ => show win0_2.index t (2 : Fin 3) * 32 + 1 * k.val = k.val; omega

theorem read3 (c : Dev nD) (t : Fin cfg0.N) (cc : Fin 256) (k : Fin 32) :
    iblk m c 3 t (ix2 cc k) = V m c main_arg3 (ix2 cc k) := by
  show V m c main_arg3 (((cfg0.win 3).blk t).view.emb (ix2 cc k)) = V m c main_arg3 (ix2 cc k)
  refine congrArg (V m c main_arg3) (funext fun a => Fin.ext ?_)
  obtain ⟨e0, e1⟩ := idx3 t
  match a with
  | ⟨0, _⟩ => show win0_3.index t (0 : Fin 2) * 256 + 1 * cc.val = cc.val; omega
  | ⟨1, _⟩ => show win0_3.index t (1 : Fin 2) * 32 + 1 * k.val = k.val; omega

theorem read4 (c : Dev nD) (t : Fin cfg0.N) (k : Fin 32) :
    iblk m c 4 t (ix3 (0 : Fin 1) (0 : Fin 1) k) = V m c main_v2 (ix3 (0 : Fin 1) (0 : Fin 1) k) := by
  show V m c main_v2 (((cfg0.win 4).blk t).view.emb (ix3 (0 : Fin 1) (0 : Fin 1) k)) = V m c main_v2 (ix3 (0 : Fin 1) (0 : Fin 1) k)
  refine congrArg (V m c main_v2) (funext fun a => Fin.ext ?_)
  obtain ⟨e0, e1, e2⟩ := idx4 t
  match a with
  | ⟨0, _⟩ => show win0_4.index t (0 : Fin 3) * 1 + 1 * 0 = 0; omega
  | ⟨1, _⟩ => show win0_4.index t (1 : Fin 3) * 1 + 1 * 0 = 0; omega
  | ⟨2, _⟩ => show win0_4.index t (2 : Fin 3) * 32 + 1 * k.val = k.val; omega

theorem read5 (c : Dev nD) (t : Fin cfg0.N) (cc k : Fin 256) :
    iblk m c 5 t (ix2 cc k) = V m c main_arg5 (ix2 cc k) := by
  show V m c main_arg5 (((cfg0.win 5).blk t).view.emb (ix2 cc k)) = V m c main_arg5 (ix2 cc k)
  refine congrArg (V m c main_arg5) (funext fun a => Fin.ext ?_)
  obtain ⟨e0, e1⟩ := idx5 t
  match a with
  | ⟨0, _⟩ => show win0_5.index t (0 : Fin 2) * 256 + 1 * cc.val = cc.val; omega
  | ⟨1, _⟩ => show win0_5.index t (1 : Fin 2) * 256 + 1 * k.val = k.val; omega

theorem read6 (c : Dev nD) (t : Fin cfg0.N) (k : Fin 256) :
    iblk m c 6 t (ix3 (0 : Fin 1) (0 : Fin 1) k) = V m c main_v3 (ix3 (0 : Fin 1) (0 : Fin 1) k) := by
  show V m c main_v3 (((cfg0.win 6).blk t).view.emb (ix3 (0 : Fin 1) (0 : Fin 1) k)) = V m c main_v3 (ix3 (0 : Fin 1) (0 : Fin 1) k)
  refine congrArg (V m c main_v3) (funext fun a => Fin.ext ?_)
  obtain ⟨e0, e1, e2⟩ := idx6 t
  match a with
  | ⟨0, _⟩ => show win0_6.index t (0 : Fin 3) * 1 + 1 * 0 = 0; omega
  | ⟨1, _⟩ => show win0_6.index t (1 : Fin 3) * 1 + 1 * 0 = 0; omega
  | ⟨2, _⟩ => show win0_6.index t (2 : Fin 3) * 256 + 1 * k.val = k.val; omega

/-! ## What a step writes back, and the whole array -/

/-- The array function at the arrays the call finds. -/
abbrev Gat (c : Dev nD) : S1024x256x256.Idx → Elt Ideal .f32 :=
  G3 (V m c main_v0) (V m c main_arg1) (V m c main_v1) (V m c main_arg3) (V m c main_v2) (V m c main_arg5) (V m c main_v3)

/-- What step `t` writes back is block `t` of the array function. -/
theorem flushed_eq (c : Dev nD) (t : Fin cfg0.N) :
    (dats m 0 c).flushed 7 t = ((cfg0.win 7).blk t).view.read (Elt Ideal) (Gat m c) := by
  show (cfg0.win 7).cut (grid0.coords t) ((dats m 0 c).after 7 t) = _
  rw [after0_7]
  unfold out0_7
  rw [View.canon_unit_zero hz3]
  simp only [View.ld_unit_zero (S := S16x256x256) hz3, View.ld_unit_zero (S := S256x32) hz2,
    View.ld_unit_zero (S := S256x256) hz2, View.ld_unit_zero (S := S1x1x32) hz3, View.ld_unit_zero (S := S1x1x256) hz3]
  funext y
  obtain ⟨e0, e1, e2⟩ := idx7 t
  show k0_pay1 (F := Ideal) (k0_pay3 (iblk m c 0 t) (iblk m c 5 t) (iblk m c 6 t))
      (k0_pay4 (iblk m c 0 t) (iblk m c 1 t) (iblk m c 3 t) (iblk m c 2 t) (iblk m c 4 t)) y
    = G3 (V m c main_v0) (V m c main_arg1) (V m c main_v1) (V m c main_arg3) (V m c main_v2) (V m c main_arg5) (V m c main_v3)
        (((cfg0.win 7).blk t).view.emb y)
  refine step_eq (iblk m c 0 t) (iblk m c 1 t) (iblk m c 2 t) (iblk m c 3 t) (iblk m c 4 t) (iblk m c 5 t) (iblk m c 6 t)
    (V m c main_v0) (V m c main_arg1) (V m c main_v1) (V m c main_arg3) (V m c main_v2) (V m c main_arg5) (V m c main_v3) t.val
    (fun nn w cc n hn => read0 m c t nn w cc n hn) (fun cc k => read1 m c t cc k) (fun k => read2 m c t k)
    (fun cc k => read3 m c t cc k) (fun k => read4 m c t k) (fun cc k => read5 m c t cc k) (fun k => read6 m c t k)
    y (((cfg0.win 7).blk t).view.emb y) ?_ ?_ ?_
  · show win0_7.index t (0 : Fin 3) * 16 + 1 * (y 0).val = t.val * 16 + (y 0).val; omega
  · show win0_7.index t (1 : Fin 3) * 256 + 1 * (y 1).val = (y 1).val; omega
  · show win0_7.index t (2 : Fin 3) * 256 + 1 * (y 2).val = (y 2).val; omega

/-- An index of the result array lies in step `t`'s block iff each coordinate lies in the block's range. -/
theorem mem_blk (t : Fin cfg0.N) (i : S1024x256x256.Idx) :
    i ∈ ((cfg0.win 7).blk t).view.set ↔ ∀ a : Fin 3, win0_7.index t a * S16x256x256.size a ≤ (i a).val
      ∧ (i a).val < win0_7.index t a * S16x256x256.size a + S16x256x256.size a := by
  show i ∈ ((View.whole main_v4).slice (win0_7.rect t)).set ↔ _
  rw [View.set_slice_whole, Rect.mem_set_unit]
  exact Iff.rfl

/-- Every index of the result array lies in the block of step `n / 16`, `n` its item. -/
theorem cover (i : S1024x256x256.Idx) : ∃ t : Fin cfg0.N, (cfg0.win 7).flush t = true ∧ i ∈ ((cfg0.win 7).blk t).view.set := by
  have h0 : (i 0).val < 1024 := (i 0).isLt
  have h1 : (i 1).val < 256 := (i 1).isLt
  have h2 : (i 2).val < 256 := (i 2).isLt
  have hN : cfg0.N = 64 := N_0
  obtain ⟨t, ht⟩ : ∃ t : Fin cfg0.N, t.val = (i 0).val / 16 := ⟨⟨(i 0).val / 16, by rw [hN]; omega⟩, rfl⟩
  obtain ⟨e0, e1, e2⟩ := idx7 t
  refine ⟨t, flush0_7 t, ?_⟩
  rw [mem_blk]
  intro a
  match a with
  | ⟨0, _⟩ => show win0_7.index t (0 : Fin 3) * 16 ≤ (i 0).val ∧ (i 0).val < win0_7.index t (0 : Fin 3) * 16 + 16; omega
  | ⟨1, _⟩ => show win0_7.index t (1 : Fin 3) * 256 ≤ (i 1).val ∧ (i 1).val < win0_7.index t (1 : Fin 3) * 256 + 256; omega
  | ⟨2, _⟩ => show win0_7.index t (2 : Fin 3) * 256 ≤ (i 2).val ∧ (i 2).val < win0_7.index t (2 : Fin 3) * 256 + 256; omega

/-- After the last step the result array is the array function of the arrays the call found. -/
theorem final (c : Dev nD) : (dats m 0 c).arrAt 7 cfg0.N = Gat m c :=
  (dats m 0 c).arrAt_eq_of_cover 7 (Gat m c) (fun t _ => flushed_eq m c t) (fun i => cover i)

end Cert.KernelIdeal.Arr

end
-- ==== Proof.Whole.lean ====
/-
  The whole result as one function of the seven arguments.

  The input has four axes, batch `b`, image row `h`, position `w` and channel `c`; item `(b, h)` is the slab
  `x[b, h] : 256 × 256`. Entry `(b, h, i, o)` of the result is the gated sum of that slab at `(i, o)`, with the
  weights read as matrices and the biases as vectors.
-/
import proofs.«128397_j15032385536186_1_alg».proof.Proof.Spec
import Idealize.ShloMosaic.Lib.ValueIdx

noncomputable section

namespace Cert.Attn

open Idealize.ShloMosaic Idealize.ShloMosaic.ValueIdx

/-- Entry `(b, h, i, o)`: the gated sum of the slab `x[b, h]` at `(i, o)`. -/
def whole (X : (⟨4, ![4, 256, 256, 256]⟩ : Shape).Idx → EReal) (Wf : (⟨2, ![256, 32]⟩ : Shape).Idx → EReal)
    (bf : (⟨1, ![32]⟩ : Shape).Idx → EReal) (Wg : (⟨2, ![256, 32]⟩ : Shape).Idx → EReal) (bg : (⟨1, ![32]⟩ : Shape).Idx → EReal)
    (Wh : (⟨2, ![256, 256]⟩ : Shape).Idx → EReal) (bh : (⟨1, ![256]⟩ : Shape).Idx → EReal) :
    (⟨4, ![4, 256, 256, 256]⟩ : Shape).Idx → EReal := fun z =>
  attnAt (fun w c => X (ix4 (⟨(z 0).val, (z 0).isLt⟩ : Fin 4) (⟨(z 1).val, (z 1).isLt⟩ : Fin 256) w c))
    (fun c k => Wf (ix2 c k)) (fun k => bf (ix1 k)) (fun c k => Wg (ix2 c k)) (fun k => bg (ix1 k))
    (fun c k => Wh (ix2 c k)) (fun k => bh (ix1 k))
    (⟨(z 2).val, (z 2).isLt⟩ : Fin 256) (⟨(z 3).val, (z 3).isLt⟩ : Fin 256)

theorem whole_apply (X : (⟨4, ![4, 256, 256, 256]⟩ : Shape).Idx → EReal) (Wf : (⟨2, ![256, 32]⟩ : Shape).Idx → EReal)
    (bf : (⟨1, ![32]⟩ : Shape).Idx → EReal) (Wg : (⟨2, ![256, 32]⟩ : Shape).Idx → EReal) (bg : (⟨1, ![32]⟩ : Shape).Idx → EReal)
    (Wh : (⟨2, ![256, 256]⟩ : Shape).Idx → EReal) (bh : (⟨1, ![256]⟩ : Shape).Idx → EReal)
    (b : Fin 4) (h i o : Fin 256) :
    whole X Wf bf Wg bg Wh bh (ix4 b h i o)
      = attnAt (fun w c => X (ix4 b h w c)) (fun c k => Wf (ix2 c k)) (fun k => bf (ix1 k))
          (fun c k => Wg (ix2 c k)) (fun k => bg (ix1 k)) (fun c k => Wh (ix2 c k)) (fun k => bh (ix1 k)) i o := rfl

end Cert.Attn

end
-- ==== Proof.KernelRun.lean ====
/-
  The kernel's program from its arguments to its result.

  Before the call the host merges the input's first two axes (item `n = 256 b + h`) and writes each bias as
  `1 × 1 × K`; after it the host splits the result's first axis back into `(b, h)`. The call leaves, at `(n, i, o)`,
  the gated sum of item `n` of the merged input; item `256 b + h` of the merged input is the slab `x[b, h]`, and a
  bias read along the last axis of its `1 × 1 × K` form is the bias vector. So the program's result at `(b, h, i, o)`
  is the gated sum of `x[b, h]` at `(i, o)`: the whole-result function of the seven arguments.
-/
import proofs.«128397_j15032385536186_1_alg».proof.Proof.Gen.KernelIdeal.Frame
import proofs.«128397_j15032385536186_1_alg».proof.Proof.KernelArray
import proofs.«128397_j15032385536186_1_alg».proof.Proof.Whole
import proofs.«128397_j15032385536186_1_alg».proof.Proof.LibLeadingAxes
import Idealize.ShloMosaic.Lib.StableHlo.Run
import Idealize.ShloMosaic.Lib.Pipeline.Value
import Idealize.ShloMosaic.Lib.ValueIdx

set_option maxRecDepth 16384

noncomputable section

namespace Cert.KernelIdeal.Run

open Cert.KernelIdeal Cert.KernelIdeal.Gen Cert.KernelIdeal.Arr Cert.Attn
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The arrays the call finds, from the arguments -/

/-- A vector written as `1 × 1 × K` reads, along its last axis, the vector. -/
theorem vec_11k_apply {α : Type} {K : Nat} (x : (⟨1, ![K]⟩ : Shape).Idx → α)
    (h : (⟨1, ![K]⟩ : Shape).ShapeCasts ⟨3, ![1, 1, K]⟩) (k : Fin K) :
    shapeCast ⟨3, ![1, 1, K]⟩ x h (ix3 (0 : Fin 1) (0 : Fin 1) k) = x (ix1 k) :=
  shapeCast_apply x h _ _ (by
    rw [Shape.rowMajor_val_one, Shape.rowMajor_val_three]
    show k.val = (0 * 1 + 0) * K + k.val
    simp)

/-- The merged input is the input with its first two axes merged. -/
theorem x_merged (c : Dev nD) :
    (V m c main_v0 : S1024x256x256.Idx → Elt Ideal .f32)
      = shapeCast S1024x256x256 (m ((c : Thread nD τ).loc main_arg0)) Facts₀.shapeCasts_S4x256x256x256_S1024x256x256 := by
  show StableHlo.after hostOps0 (fun b => m (c, b)) (Proc.devRef .tc main_v0) = _
  after_results
  rfl

theorem bf_cast (c : Dev nD) :
    (V m c main_v1 : S1x1x32.Idx → Elt Ideal .f32) = shapeCast S1x1x32 (m ((c : Thread nD τ).loc main_arg2)) Facts₀.shapeCasts_S32_S1x1x32 := by
  show StableHlo.after hostOps0 (fun b => m (c, b)) (Proc.devRef .tc main_v1) = _
  after_results
  rfl

theorem bg_cast (c : Dev nD) :
    (V m c main_v2 : S1x1x32.Idx → Elt Ideal .f32) = shapeCast S1x1x32 (m ((c : Thread nD τ).loc main_arg4)) Facts₀.shapeCasts_S32_S1x1x32 := by
  show StableHlo.after hostOps0 (fun b => m (c, b)) (Proc.devRef .tc main_v2) = _
  after_results
  rfl

theorem bh_cast (c : Dev nD) :
    (V m c main_v3 : S1x1x256.Idx → Elt Ideal .f32) = shapeCast S1x1x256 (m ((c : Thread nD τ).loc main_arg6)) Facts₀.shapeCasts_S256_S1x1x256 := by
  show StableHlo.after hostOps0 (fun b => m (c, b)) (Proc.devRef .tc main_v3) = _
  after_results
  rfl

/-- Item `256 b + h` of the merged input is the slab `x[b, h]`. -/
theorem x_merged_apply (c : Dev nD) (b : Fin 4) (h w cc : Fin 256) (n : Fin 1024) (hn : n.val = b.val * 256 + h.val) :
    V m c main_v0 (ix3 n w cc) = m ((c : Thread nD τ).loc main_arg0) (ix4 b h w cc) :=
  (congrFun (x_merged m c) (ix3 n w cc)).trans (Cert.LibLeadingAxes.merge4_apply _ _ b h w cc n hn)

theorem bf_apply (c : Dev nD) (k : Fin 32) : V m c main_v1 (ix3 (0 : Fin 1) (0 : Fin 1) k) = m ((c : Thread nD τ).loc main_arg2) (ix1 k) :=
  (congrFun (bf_cast m c) _).trans (vec_11k_apply _ _ k)
theorem bg_apply (c : Dev nD) (k : Fin 32) : V m c main_v2 (ix3 (0 : Fin 1) (0 : Fin 1) k) = m ((c : Thread nD τ).loc main_arg4) (ix1 k) :=
  (congrFun (bg_cast m c) _).trans (vec_11k_apply _ _ k)
theorem bh_apply (c : Dev nD) (k : Fin 256) : V m c main_v3 (ix3 (0 : Fin 1) (0 : Fin 1) k) = m ((c : Thread nD τ).loc main_arg6) (ix1 k) :=
  (congrFun (bh_cast m c) _).trans (vec_11k_apply _ _ k)

/-- What the call leaves at item `256 b + h` is the whole-result function of the arguments at `(b, h, ·, ·)`. -/
theorem call_apply (c : Dev nD) (b : Fin 4) (h i o : Fin 256) (n : Fin 1024) (hn : n.val = b.val * 256 + h.val) :
    Gat m c (ix3 n i o) = whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix4 b h i o) := by
  rw [whole_apply]
  show G3 (V m c main_v0) (V m c main_arg1) (V m c main_v1) (V m c main_arg3) (V m c main_v2) (V m c main_arg5) (V m c main_v3)
    (ix3 n i o) = _
  rw [G3_apply]
  have e0 : (fun (w cc : Fin 256) => V m c main_v0 (ix3 n w cc)) = fun w cc => m ((c : Thread nD τ).loc main_arg0) (ix4 b h w cc) :=
    funext fun w => funext fun cc => x_merged_apply m c b h w cc n hn
  have e2 : (fun k : Fin 32 => V m c main_v1 (ix3 (0 : Fin 1) (0 : Fin 1) k)) = fun k => m ((c : Thread nD τ).loc main_arg2) (ix1 k) :=
    funext fun k => bf_apply m c k
  have e4 : (fun k : Fin 32 => V m c main_v2 (ix3 (0 : Fin 1) (0 : Fin 1) k)) = fun k => m ((c : Thread nD τ).loc main_arg4) (ix1 k) :=
    funext fun k => bg_apply m c k
  have e6 : (fun k : Fin 256 => V m c main_v3 (ix3 (0 : Fin 1) (0 : Fin 1) k)) = fun k => m ((c : Thread nD τ).loc main_arg6) (ix1 k) :=
    funext fun k => bh_apply m c k
  rw [e0, e2, e4, e6, V_main_arg1, V_main_arg3, V_main_arg5]

/-! ## The result, after the host's split of the first axis -/

/-- The program's result buffer, as the lines after the call leave it, is the whole-result function of the arguments. -/
theorem result_eq (c : Dev nD) :
    Pipeline.afterTail₀ cfgs (dats m) 0 (V0 m) [hostOps1] c main_v5 = whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have e : (Pipeline.afterTail₀ cfgs (dats m) 0 (V0 m) [hostOps1] c main_v5 : S4x256x256x256.Idx → Elt Ideal .f32)
      = shapeCast S4x256x256x256 (Gat m c) Facts₀.shapeCasts_S1024x256x256_S4x256x256x256 := by
    unfold Pipeline.afterTail₀
    show StableHlo.after hostOps1 _ (Proc.devRef .tc main_v5) = _
    after_results
    rw [show Pipeline.withArrays (cfgs 0).spec c (V0 m c) (fun w => (dats m 0 c).arrAt w (cfgs 0).N) (Proc.devRef .tc main_v4)
        = Gat m c from (Pipeline.withArrays_arr spec0 launch0.win.arr_inj c _ _ 7).trans (final m c)]
    rfl
  funext z
  obtain ⟨b, h, i, o, rfl⟩ : ∃ (b : Fin 4) (h i o : Fin 256), z = ix4 b h i o := ⟨z 0, z 1, z 2, z 3, eq_ix4 z⟩
  have hb := b.isLt
  have hh := h.isLt
  exact (congrFun e (ix4 b h i o)).trans
    ((Cert.LibLeadingAxes.split4_apply _ _ b h i o (⟨b.val * 256 + h.val, by omega⟩ : Fin 1024) rfl).trans
      (call_apply m c b h i o _ rfl))

/-! ## The run -/

/-- Every weakly fair execution of the program terminates with its result at the whole-result function of the arguments
    and the arguments unchanged. -/
theorem run : θ_run defs (onTc (τ := τ) (main (F := Ideal))) ⟨m, fun _ => 0, ρ⟩ (fun r => ∀ c : Dev nD,
      r.2.mem ((c : Thread nD τ).loc main_v5) = whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  (θ_run defs _ _).mono (fun r h c =>
    ⟨((h c).2 main_v5 (Pipeline.mem_restRefs_of main_v5 (by decide) (by decide))).trans (result_eq m c),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c))),
     ((h c).2 main_arg2 (Pipeline.mem_restRefs_of main_arg2 (by decide) (by decide))).trans (W_main_arg2 m (dats m) c),
     ((h c).1 3).trans (((dats m 0 c).arrAt_in 3 rfl _).trans ((A_eq m c 3).trans (V_main_arg3 m c))),
     ((h c).2 main_arg4 (Pipeline.mem_restRefs_of main_arg4 (by decide) (by decide))).trans (W_main_arg4 m (dats m) c),
     ((h c).1 5).trans (((dats m 0 c).arrAt_in 5 rfl _).trans ((A_eq m c 5).trans (V_main_arg5 m c))),
     ((h c).2 main_arg6 (Pipeline.mem_restRefs_of main_arg6 (by decide) (by decide))).trans (W_main_arg6 m (dats m) c)⟩)
    (run_main m ρ)

end Cert.KernelIdeal.Run

end
-- ==== Proof.RefValue.lean ====
/-
  The reference computes the whole-result function.

  Its program is written with four axes throughout: three products of the input with a weight matrix over the channel
  axis, each plus its bias spread over the other axes; per `(b, h)` the product of `f` and `g` over their last axis;
  the gate spelt `1 / (1 + e^(-s))`; and per `(b, h)` the product of the gate with `h` over the position axis. Read
  at an index `(b, h, i, o)` each of these is the corresponding sum of the specification, with the same terms in the
  same order, and the spelt gate is the logistic function.
-/
import proofs.«128397_j15032385536186_1_alg».proof.Proof.Gen.ReferenceIdeal.Read
import proofs.«128397_j15032385536186_1_alg».proof.Proof.Whole
import Idealize.ShloMosaic.Lib.ValueIdx

noncomputable section

namespace Cert.ReferenceIdeal.RefValue

open Cert.ReferenceIdeal Cert.ReferenceIdeal.Gen Cert.ReferenceIdeal.Read Cert.Attn
open Idealize.ShloMosaic Idealize.ShloMosaic.ValueIdx
open scoped BigOperators

/-- `f = x · Wf + bf` at `(b, h, w, k)`. -/
theorem f_apply (x0 : (⟨S4x256x256x256, .f32⟩ : BufTy).Contents (Elt Ideal)) (x1 : (⟨S256x32, .f32⟩ : BufTy).Contents (Elt Ideal)) (x2 : (⟨S32, .f32⟩ : BufTy).Contents (Elt Ideal)) (b : Fin 4) (h w : Fin 256) (k : Fin 32) :
    val_main_v3 (F := Ideal) x0 x1 x2 (ix4 b h w k)
      = proj (fun w c => x0 (ix4 b h w c)) (fun c k => x1 (ix2 c k)) (fun k => x2 (ix1 k)) w k := by
  rw [val_main_v3_apply, val_main_v0_apply, val_main_v2_apply, val_main_v1_apply]
  unfold proj
  simp only [Ideal.addf_def]
  refine congrArg₂ (· + ·) (Finset.sum_congr rfl fun c _ => ?_) ?_
  · have el : lidx_main_v0 (ix4 b h w k) c = ix4 b h w c := funext fun a => Fin.ext (by
      match a with
      | ⟨0, _⟩ => rfl
      | ⟨1, _⟩ => rfl
      | ⟨2, _⟩ => rfl
      | ⟨3, _⟩ => rfl)
    have er : ridx_main_v0 (ix4 b h w k) c = ix2 c k := funext fun a => Fin.ext (by
      match a with
      | ⟨0, _⟩ => rfl
      | ⟨1, _⟩ => rfl)
    rw [el, er]
  · have e : idx_main_v1 (idx_main_v2 (ix4 b h w k)) = ix1 k := funext fun a => Fin.ext (by
      match a with
      | ⟨0, _⟩ => rfl)
    rw [e]

/-- `g = x · Wg + bg` at `(b, h, w, k)`. -/
theorem g_apply (x0 : (⟨S4x256x256x256, .f32⟩ : BufTy).Contents (Elt Ideal)) (x3 : (⟨S256x32, .f32⟩ : BufTy).Contents (Elt Ideal)) (x4 : (⟨S32, .f32⟩ : BufTy).Contents (Elt Ideal)) (b : Fin 4) (h w : Fin 256) (k : Fin 32) :
    val_main_v7 (F := Ideal) x0 x3 x4 (ix4 b h w k)
      = proj (fun w c => x0 (ix4 b h w c)) (fun c k => x3 (ix2 c k)) (fun k => x4 (ix1 k)) w k := by
  rw [val_main_v7_apply, val_main_v4_apply, val_main_v6_apply, val_main_v5_apply]
  unfold proj
  simp only [Ideal.addf_def]
  refine congrArg₂ (· + ·) (Finset.sum_congr rfl fun c _ => ?_) ?_
  · have el : lidx_main_v4 (ix4 b h w k) c = ix4 b h w c := funext fun a => Fin.ext (by
      match a with
      | ⟨0, _⟩ => rfl
      | ⟨1, _⟩ => rfl
      | ⟨2, _⟩ => rfl
      | ⟨3, _⟩ => rfl)
    have er : ridx_main_v4 (ix4 b h w k) c = ix2 c k := funext fun a => Fin.ext (by
      match a with
      | ⟨0, _⟩ => rfl
      | ⟨1, _⟩ => rfl)
    rw [el, er]
  · have e : idx_main_v5 (idx_main_v6 (ix4 b h w k)) = ix1 k := funext fun a => Fin.ext (by
      match a with
      | ⟨0, _⟩ => rfl)
    rw [e]

/-- `h = x · Wh + bh` at `(b, h, w, o)`. -/
theorem h_apply (x0 : (⟨S4x256x256x256, .f32⟩ : BufTy).Contents (Elt Ideal)) (x5 : (⟨S256x256, .f32⟩ : BufTy).Contents (Elt Ideal)) (x6 : (⟨S256, .f32⟩ : BufTy).Contents (Elt Ideal)) (b : Fin 4) (h w o : Fin 256) :
    val_main_v11 (F := Ideal) x0 x5 x6 (ix4 b h w o)
      = proj (fun w c => x0 (ix4 b h w c)) (fun c k => x5 (ix2 c k)) (fun k => x6 (ix1 k)) w o := by
  rw [val_main_v11_apply, val_main_v8_apply, val_main_v10_apply, val_main_v9_apply]
  unfold proj
  simp only [Ideal.addf_def]
  refine congrArg₂ (· + ·) (Finset.sum_congr rfl fun c _ => ?_) ?_
  · have el : lidx_main_v8 (ix4 b h w o) c = ix4 b h w c := funext fun a => Fin.ext (by
      match a with
      | ⟨0, _⟩ => rfl
      | ⟨1, _⟩ => rfl
      | ⟨2, _⟩ => rfl
      | ⟨3, _⟩ => rfl)
    have er : ridx_main_v8 (ix4 b h w o) c = ix2 c o := funext fun a => Fin.ext (by
      match a with
      | ⟨0, _⟩ => rfl
      | ⟨1, _⟩ => rfl)
    rw [el, er]
  · have e : idx_main_v9 (idx_main_v10 (ix4 b h w o)) = ix1 o := funext fun a => Fin.ext (by
      match a with
      | ⟨0, _⟩ => rfl)
    rw [e]

/-- The gate at `(b, h, i, j)`: the logistic function of `∑ k, f (i, k) · g (j, k)` of the slab `(b, h)`. -/
theorem gate_apply (x0 : (⟨S4x256x256x256, .f32⟩ : BufTy).Contents (Elt Ideal)) (x1 : (⟨S256x32, .f32⟩ : BufTy).Contents (Elt Ideal)) (x2 : (⟨S32, .f32⟩ : BufTy).Contents (Elt Ideal)) (x3 : (⟨S256x32, .f32⟩ : BufTy).Contents (Elt Ideal)) (x4 : (⟨S32, .f32⟩ : BufTy).Contents (Elt Ideal)) (b : Fin 4) (h i j : Fin 256) :
    val_main_v18 (F := Ideal) x0 x1 x2 x3 x4 (ix4 b h i j)
      = Ideal.logistic (∑ k : Fin 32,
          proj (fun w c => x0 (ix4 b h w c)) (fun c k => x1 (ix2 c k)) (fun k => x2 (ix1 k)) i k
          * proj (fun w c => x0 (ix4 b h w c)) (fun c k => x3 (ix2 c k)) (fun k => x4 (ix1 k)) j k) := by
  rw [val_main_v18_apply, val_main_v17_apply, val_main_cst_0_apply, val_main_v16_apply, val_main_v15_apply,
    val_main_cst_apply, val_main_v14_apply, val_main_v13_apply, val_main_v12_apply]
  simp only [Ideal.hostDivf_def, Ideal.addf_def, Ideal.hostUnary_exp_def, Ideal.hostNegf_def, Ideal.negf_def, Ideal.ofBits_def]
  rw [logistic_spelt]
  refine congrArg Ideal.logistic (Finset.sum_congr rfl fun k _ => ?_)
  have el : lidx_main_v12 (ix4 b h i j) k = ix4 b h i k := funext fun a => Fin.ext (by
      match a with
      | ⟨0, _⟩ => rfl
      | ⟨1, _⟩ => rfl
      | ⟨2, _⟩ => rfl
      | ⟨3, _⟩ => rfl)
  have er : ridx_main_v12 (ix4 b h i j) k = ix4 b h j k := funext fun a => Fin.ext (by
      match a with
      | ⟨0, _⟩ => rfl
      | ⟨1, _⟩ => rfl
      | ⟨2, _⟩ => rfl
      | ⟨3, _⟩ => rfl)
  rw [el, er, f_apply, g_apply]

/-- The reference's result is the whole-result function of its seven arguments. -/
theorem ref_eq (x0 : (⟨S4x256x256x256, .f32⟩ : BufTy).Contents (Elt Ideal)) (x1 : (⟨S256x32, .f32⟩ : BufTy).Contents (Elt Ideal)) (x2 : (⟨S32, .f32⟩ : BufTy).Contents (Elt Ideal)) (x3 : (⟨S256x32, .f32⟩ : BufTy).Contents (Elt Ideal)) (x4 : (⟨S32, .f32⟩ : BufTy).Contents (Elt Ideal)) (x5 : (⟨S256x256, .f32⟩ : BufTy).Contents (Elt Ideal)) (x6 : (⟨S256, .f32⟩ : BufTy).Contents (Elt Ideal)) :
    val_main_v19 (F := Ideal) x0 x1 x2 x3 x4 x5 x6 = whole x0 x1 x2 x3 x4 x5 x6 := by
  funext z
  obtain ⟨b, h, i, o, rfl⟩ : ∃ (b : Fin 4) (h i o : Fin 256), z = ix4 b h i o := ⟨z 0, z 1, z 2, z 3, eq_ix4 z⟩
  rw [val_main_v19_apply, whole_apply]
  unfold attnAt
  refine Finset.sum_congr rfl fun j _ => ?_
  have el : lidx_main_v19 (ix4 b h i o) j = ix4 b h i j := funext fun a => Fin.ext (by
      match a with
      | ⟨0, _⟩ => rfl
      | ⟨1, _⟩ => rfl
      | ⟨2, _⟩ => rfl
      | ⟨3, _⟩ => rfl)
  have er : ridx_main_v19 (ix4 b h i o) j = ix4 b h j o := funext fun a => Fin.ext (by
      match a with
      | ⟨0, _⟩ => rfl
      | ⟨1, _⟩ => rfl
      | ⟨2, _⟩ => rfl
      | ⟨3, _⟩ => rfl)
  rw [el, er, gate_apply, h_apply]

end Cert.ReferenceIdeal.RefValue

end
-- ==== Proof.lean ====
/-
  A gated self-attention over the positions of each image row, against its plain reference.

  The input `x` has axes batch `b`, row `h`, position `w` and channel `c` (4 × 256 × 256 × 256). Three affine maps
  along the channel axis give `f = x · Wf + bf` and `g = x · Wg + bg` (32 channels) and `hh = x · Wh + bh` (256
  channels). For each `(b, h)` the result at position `i`, channel `o` is
      out (b, h, i, o) = ∑ j, σ (∑ k, f (b, h, i, k) · g (b, h, j, k)) · hh (b, h, j, o),     σ s = 1 / (1 + e^(-s)).

  The kernel merges `(b, h)` into one axis of 1024 items, handles sixteen items per grid step (applying the three
  affine maps to all 16 · 256 positions of a step at once, then forming the gated sum item by item) and splits the
  axis again at the end; it applies the gate as one operation and passes its matrix operands through a narrower float
  format. The reference keeps four axes and spells the gate with a negation, an exponential, a sum and a quotient. On
  the ideal values a change of float format is the identity and the spelt gate is the logistic function on every
  extended real, so both programs compute the same sums of the same terms in the same order, and no law of arithmetic
  beyond that is needed: the proof shows that each program's result is the one function `Cert.Attn.whole` of the seven
  arguments, index by index. The precondition is not used by the value claim.
-/
import proofs.«128397_j15032385536186_1_alg».proof.Defs
import proofs.«128397_j15032385536186_1_alg».proof.Proof.Gen.Kernel
import proofs.«128397_j15032385536186_1_alg».proof.Proof.Gen.Kernel.Skeleton
import proofs.«128397_j15032385536186_1_alg».proof.Proof.Gen.Kernel.Launch
import proofs.«128397_j15032385536186_1_alg».proof.Proof.Gen.Kernel.Points
import proofs.«128397_j15032385536186_1_alg».proof.Proof.Gen.Kernel.Frame
import proofs.«128397_j15032385536186_1_alg».proof.Proof.Gen.KernelIdeal
import proofs.«128397_j15032385536186_1_alg».proof.Proof.Gen.KernelIdeal.Skeleton
import proofs.«128397_j15032385536186_1_alg».proof.Proof.Gen.KernelIdeal.Launch
import proofs.«128397_j15032385536186_1_alg».proof.Proof.Gen.KernelIdeal.Points
import proofs.«128397_j15032385536186_1_alg».proof.Proof.Gen.KernelIdeal.Frame
import proofs.«128397_j15032385536186_1_alg».proof.Proof.Gen.ReferenceIdeal
import proofs.«128397_j15032385536186_1_alg».proof.Proof.Gen.Pre_finite_inputs
import proofs.«128397_j15032385536186_1_alg».proof.Proof.Gen.ReferenceIdeal.Run
import proofs.«128397_j15032385536186_1_alg».proof.Proof.Gen.ReferenceIdeal.Read
import proofs.«128397_j15032385536186_1_alg».proof.Proof.KernelRun
import proofs.«128397_j15032385536186_1_alg».proof.Proof.RefValue
import Idealize.ShloMosaic.Adequacy
import Idealize.ShloMosaic.Init

noncomputable section

namespace Cert.Proof

open Idealize.ShloMosaic Idealize.SL.Sem

/-- The kernel as printed runs, faults nowhere and leaves its arguments as they were. -/
theorem frame_kernel : Cert.frame_Kernel := fun m ρ _ => Cert.Kernel.Gen.frame m ρ

/-- So does the kernel read on the ideal values. -/
theorem frame_kernel_ideal : Cert.frame_KernelIdeal := fun m ρ _ => Cert.KernelIdeal.Gen.frame m ρ

/-- The reference is a straight line of host operations: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing of the kernel was rewritten to read it on the ideal values. -/
theorem preserves : Cert.preserves_Kernel_KernelIdeal := trivial

/-- Both programs end at the whole-result function of their arguments, and the arguments agree. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v19_eq, Cert.ReferenceIdeal.RefValue.ref_eq,
    (hagree c).1, (hagree c).2.1, (hagree c).2.2.1, (hagree c).2.2.2.1, (hagree c).2.2.2.2.1,
    (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
